-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_196" .f32 0x3BA72F05#32 ((1 / 196 : ℝ) : EReal)
  ∧ IdealRules.named_const.Statement Cert.KernelIdeal.κ "inv_196" .f32 0x3BA72F05#32 ((1 / 196 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x14x14 : Shape := ⟨4, ![128, 1024, 14, 14]⟩
abbrev S2x1024x1x1 : Shape := ⟨4, ![2, 1024, 1, 1]⟩
abbrev S128 : Shape := ⟨1, ![128]⟩
abbrev S_ : Shape := ⟨0, ![]⟩

class Facts : Prop where
  bcast_S_S128x1024x14x14 : S_.BroadcastsInDim S128x1024x14x14 (![] : Fin 0 → Fin S128x1024x14x14.rank)
  reducesTo_S128x1024x14x14_S_d0_1_2_3 : S128x1024x14x14.ReducesTo [0, 1, 2, 3] S_
  h_S_ : 0 < S_.numel
  bcast_S_S2x1024x1x1 : S_.BroadcastsInDim S2x1024x1x1 (![] : Fin 0 → Fin S2x1024x1x1.rank)
  reducesTo_S2x1024x1x1_S_d0_1_2_3 : S2x1024x1x1.ReducesTo [0, 1, 2, 3] S_
  bcast_S_S128 : S_.BroadcastsInDim S128 (![] : Fin 0 → Fin S128.rank)
  reducesTo_S128_S_d0 : S128.ReducesTo [0] S_

variable [Facts]

def fn_part1 {F : FTy → Type} [FloatOps F] (main_arg4 : IVec S128 32) (main_v13 : IVec S_ 1) (main_v15 : IVec S128 1) (main_c_5 : IVec S_ 32) : IVec S_ 1 :=
  let main_v16 : IVec S128 32 := broadcastInDim S128 ![] bcast_S_S128 main_c_5
  let main_v17 : IVec S128 1 := cmpi .sle main_arg4 main_v16
  let main_v18 : IVec S128 1 := andi main_v15 main_v17
  let main_c_6 : IVec S_ 1 := constantI S_ 1 1#1
  let main_v19 : IVec S_ 1 := (fun x v => Host.reduce IntOp.andi x v reducesTo_S128_S_d0 h_S_) main_v18 main_c_6
  let main_v20 : IVec S_ 1 := andi main_v13 main_v19
  main_v20

def fn {F : FTy → Type} [FloatOps F] (main_arg0 : FVec F S128x1024x14x14 .f32) (main_arg1 : FVec F S128x1024x14x14 .f32) (main_arg2 : FVec F S2x1024x1x1 .f32) (main_arg3 : IVec S128 32) (main_arg4 : IVec S128 32) : IVec S_ 1 :=
  let main_v0 : FVec F S128x1024x14x14 .f32 := Host.absf main_arg0
  let main_cst : FVec F S_ .f32 := constant S_ .f32 0x7F800000#32
  let main_v1 : FVec F S128x1024x14x14 .f32 := broadcastInDim S128x1024x14x14 ![] bcast_S_S128x1024x14x14 main_cst
  let main_v2 : IVec S128x1024x14x14 1 := cmpf .olt main_v0 main_v1
  let main_c : IVec S_ 1 := constantI S_ 1 1#1
  let main_v3 : IVec S_ 1 := (fun x v => Host.reduce IntOp.andi x v reducesTo_S128x1024x14x14_S_d0_1_2_3 h_S_) main_v2 main_c
  let main_v4 : FVec F S128x1024x14x14 .f32 := Host.absf main_arg1
  let main_cst_0 : FVec F S_ .f32 := constant S_ .f32 0x7F800000#32
  let main_v5 : FVec F S128x1024x14x14 .f32 := broadcastInDim S128x1024x14x14 ![] bcast_S_S128x1024x14x14 main_cst_0
  let main_v6 : IVec S128x1024x14x14 1 := cmpf .olt main_v4 main_v5
  let main_c_1 : IVec S_ 1 := constantI S_ 1 1#1
  let main_v7 : IVec S_ 1 := (fun x v => Host.reduce IntOp.andi x v reducesTo_S128x1024x14x14_S_d0_1_2_3 h_S_) main_v6 main_c_1
  let main_v8 : IVec S_ 1 := andi main_v3 main_v7
  let main_v9 : FVec F S2x1024x1x1 .f32 := Host.absf main_arg2
  let main_cst_2 : FVec F S_ .f32 := constant S_ .f32 0x7F800000#32
  let main_v10 : FVec F S2x1024x1x1 .f32 := broadcastInDim S2x1024x1x1 ![] bcast_S_S2x1024x1x1 main_cst_2
  let main_v11 : IVec S2x1024x1x1 1 := cmpf .olt main_v9 main_v10
  let main_c_3 : IVec S_ 1 := constantI S_ 1 1#1
  let main_v12 : IVec S_ 1 := (fun x v => Host.reduce IntOp.andi x v reducesTo_S2x1024x1x1_S_d0_1_2_3 h_S_) main_v11 main_c_3
  let main_v13 : IVec S_ 1 := andi main_v8 main_v12
  let main_c_4 : IVec S_ 32 := constantI S_ 32 0#32
  let main_v14 : IVec S128 32 := broadcastInDim S128 ![] bcast_S_S128 main_c_4
  let main_v15 : IVec S128 1 := cmpi .sge main_arg4 main_v14
  let main_c_5 : IVec S_ 32 := constantI S_ 32 1#32
  fn_part1 (F := F) main_arg4 main_v13 main_v15 main_c_5
-- ==== Kernel.lean ====
abbrev S128x1024x14x14 : Shape := ⟨4, ![128, 1024, 14, 14]⟩
abbrev S2x1024x1x1 : Shape := ⟨4, ![2, 1024, 1, 1]⟩
abbrev S128 : Shape := ⟨1, ![128]⟩
abbrev S_ : Shape := ⟨0, ![]⟩
abbrev S128x1 : Shape := ⟨2, ![128, 1]⟩
abbrev S128x1024x196 : Shape := ⟨3, ![128, 1024, 196]⟩
abbrev S2x1024 : Shape := ⟨2, ![2, 1024]⟩
abbrev S2x1x128 : Shape := ⟨3, ![2, 1, 128]⟩
abbrev S64x128x196 : Shape := ⟨3, ![64, 128, 196]⟩
abbrev S64x1 : Shape := ⟨2, ![64, 1]⟩
abbrev S2x128 : Shape := ⟨2, ![2, 128]⟩
abbrev S1x1x128 : Shape := ⟨3, ![1, 1, 128]⟩
abbrev S64x128 : Shape := ⟨2, ![64, 128]⟩
abbrev S1x128 : Shape := ⟨2, ![1, 128]⟩
abbrev S64 : Shape := ⟨1, ![64]⟩
abbrev S1 : Shape := ⟨1, ![1]⟩
abbrev S1x1 : Shape := ⟨2, ![1, 1]⟩
abbrev S1x1x1 : Shape := ⟨3, ![1, 1, 1]⟩
abbrev S2x1x1 : Shape := ⟨3, ![2, 1, 1]⟩
abbrev S2 : Shape := ⟨1, ![2]⟩

abbrev nBuf : Space → Nat
  | .hbm => 23
  | .vmem => 13
  | .smem => 0
  | _ => 0

abbrev bufTy : (tb : Table) → Fin (tcTables nBuf tb) → BufTy
  | .hbm, ⟨0, _⟩ => ⟨S128x1024x14x14, .f32⟩
  | .hbm, ⟨1, _⟩ => ⟨S128x1024x14x14, .f32⟩
  | .hbm, ⟨2, _⟩ => ⟨S2x1024x1x1, .f32⟩
  | .hbm, ⟨3, _⟩ => ⟨S128, .i32⟩
  | .hbm, ⟨4, _⟩ => ⟨S128, .i32⟩
  | .hbm, ⟨5, _⟩ => ⟨S_, .i32⟩
  | .hbm, ⟨6, _⟩ => ⟨S128, .i32⟩
  | .hbm, ⟨7, _⟩ => ⟨S128, .i1⟩
  | .hbm, ⟨8, _⟩ => ⟨S128, .f32⟩
  | .hbm, ⟨9, _⟩ => ⟨S128x1, .f32⟩
  | .hbm, ⟨10, _⟩ => ⟨S_, .i32⟩
  | .hbm, ⟨11, _⟩ => ⟨S128, .i32⟩
  | .hbm, ⟨12, _⟩ => ⟨S128, .i1⟩
  | .hbm, ⟨13, _⟩ => ⟨S128, .f32⟩
  | .hbm, ⟨14, _⟩ => ⟨S128x1, .f32⟩
  | .hbm, ⟨15, _⟩ => ⟨S128x1024x196, .f32⟩
  | .hbm, ⟨16, _⟩ => ⟨S128x1024x196, .f32⟩
  | .hbm, ⟨17, _⟩ => ⟨S2x1024, .f32⟩
  | .hbm, ⟨18, _⟩ => ⟨S2x1x128, .f32⟩
  | .hbm, ⟨19, _⟩ => ⟨S2x1x1, .f32⟩
  | .hbm, ⟨20, _⟩ => ⟨S2, .f32⟩
  | .hbm, ⟨21, _⟩ => ⟨S_, .f32⟩
  | .hbm, ⟨22, _⟩ => ⟨S_, .f32⟩
  | .local _ .vmem, ⟨0, _⟩ => ⟨S64x128x196, .f32⟩
  | .local _ .vmem, ⟨1, _⟩ => ⟨S64x128x196, .f32⟩
  | .local _ .vmem, ⟨2, _⟩ => ⟨S64x128x196, .f32⟩
  | .local _ .vmem, ⟨3, _⟩ => ⟨S64x128x196, .f32⟩
  | .local _ .vmem, ⟨4, _⟩ => ⟨S64x1, .f32⟩
  | .local _ .vmem, ⟨5, _⟩ => ⟨S64x1, .f32⟩
  | .local _ .vmem, ⟨6, _⟩ => ⟨S64x1, .f32⟩
  | .local _ .vmem, ⟨7, _⟩ => ⟨S64x1, .f32⟩
  | .local _ .vmem, ⟨8, _⟩ => ⟨S2x128, .f32⟩
  | .local _ .vmem, ⟨9, _⟩ => ⟨S2x128, .f32⟩
  | .local _ .vmem, ⟨10, _⟩ => ⟨S1x1x128, .f32⟩
  | .local _ .vmem, ⟨11, _⟩ => ⟨S1x1x128, .f32⟩
  | .local _ .vmem, ⟨12, _⟩ => ⟨S64x1, .f32⟩
  | _, _ => ⟨S128x1024x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v64 : BitVec 1 := Scalar.cmpi .eq arg1 c7_i32
  let v65 : BitVec 32 := Scalar.extui v64
  let c0_i32_28 : BitVec 32 := 0#32
  let v66 : BitVec 1 := Scalar.cmpi .ne v65 c0_i32_28
  v66

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128x196 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S128 : S_.BroadcastsInDim S128 (![] : Fin 0 → Fin S128.rank)
  shapeCasts_S128_S128x1 : S128.ShapeCasts S128x1
  shapeCasts_S128x1024x14x14_S128x1024x196 : S128x1024x14x14.ShapeCasts S128x1024x196
  shapeCasts_S2x1024x1x1_S2x1024 : S2x1024x1x1.ShapeCasts S2x1024
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x128x196_S64x128x196_0_0_0 : ∀ a, (![0, 0, 0] : Fin 3 → Nat) a + S64x128x196.size a ≤ S64x128x196.size a
  h_S64x128x196 : 0 < S64x128x196.numel
  shapeCasts_S64x128x196_S64x128x196 : S64x128x196.ShapeCasts S64x128x196
  reduces_S64x128x196_S64x128 : S64x128x196.Reduces [2] S64x128
  broadcasts_S64x1_S64x128 : S64x1.Broadcasts S64x128
  inb_S2x128_S1x128_0_0 : ∀ a, (![0, 0] : Fin 2 → Nat) a + S1x128.size a ≤ S2x128.size a
  h_S1x128 : 0 < S1x128.numel
  shapeCasts_S1x128_S1x128 : S1x128.ShapeCasts S1x128
  broadcasts_S1x128_S64x128 : S1x128.Broadcasts S64x128
  inb_S2x128_S1x128_1_0 : ∀ a, (![1, 0] : Fin 2 → Nat) a + S1x128.size a ≤ S2x128.size a
  reduces_S64x128_S64 : S64x128.Reduces [1] S64
  shapeCasts_S64_S64x1 : S64.ShapeCasts S64x1
  reduces_S64x1_S1 : S64x1.Reduces [0] S1
  shapeCasts_S1_S1x1 : S1.ShapeCasts S1x1
  shapeCasts_S1x1_S1x1x1 : S1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S2x1x128_S2x1x1_0_0_0 : S2x1x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x196.size a ≤ S128x1024x196.size a
  hwx0_0 : ∀ i : grid0.Coords, EltTy.bits .f32 = 32 ∨ (Rect.block (s := S128x1024x196) S64x128x196.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x196.size a ≤ S128x1024x196.size a
  hwx0_1 : ∀ i : grid0.Coords, EltTy.bits .f32 = 32 ∨ (Rect.block (s := S128x1024x196) S64x128x196.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S128x1.size a
  hwx0_2 : ∀ i : grid0.Coords, EltTy.bits .f32 = 32 ∨ (Rect.block (s := S128x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S128x1.size a
  hwx0_3 : ∀ i : grid0.Coords, EltTy.bits .f32 = 32 ∨ (Rect.block (s := S128x1) S64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x128.size a ≤ S2x1024.size a
  hwx0_4 : ∀ i : grid0.Coords, EltTy.bits .f32 = 32 ∨ (Rect.block (s := S2x1024) S2x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)

variable [Facts₀]

abbrev win0_0 : Pipeline.Window sig grid0 :=
  Pipeline.Window.ofSpec (Memref.whole main_v8) S64x128x196.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S64x128x196.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S64x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S2x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S128x1024x14x14 : Shape := ⟨4, ![128, 1024, 14, 14]⟩
abbrev S2x1024x1x1 : Shape := ⟨4, ![2, 1024, 1, 1]⟩
abbrev S128 : Shape := ⟨1, ![128]⟩
abbrev S_ : Shape := ⟨0, ![]⟩
abbrev S128x1024 : Shape := ⟨2, ![128, 1024]⟩
abbrev S128x1 : Shape := ⟨2, ![128, 1]⟩
abbrev S2x1024 : Shape := ⟨2, ![2, 1024]⟩

abbrev nBuf : Space → Nat
  | .hbm => 67
  | .vmem => 0
  | .smem => 0
  | _ => 0

abbrev bufTy : (tb : Table) → Fin (tcTables nBuf tb) → BufTy
  | .hbm, ⟨0, _⟩ => ⟨S128x1024x14x14, .f32⟩
  | .hbm, ⟨1, _⟩ => ⟨S128x1024x14x14, .f32⟩
  | .hbm, ⟨2, _⟩ => ⟨S2x1024x1x1, .f32⟩
  | .hbm, ⟨3, _⟩ => ⟨S128, .i32⟩
  | .hbm, ⟨4, _⟩ => ⟨S128, .i32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S_, .i32⟩
  | .hbm, ⟨16, _⟩ => ⟨S128, .i32⟩
  | .hbm, ⟨17, _⟩ => ⟨S128, .i1⟩
  | .hbm, ⟨18, _⟩ => ⟨S128x1, .i1⟩
  | .hbm, ⟨19, _⟩ => ⟨S128x1024, .i1⟩
  | .hbm, ⟨20, _⟩ => ⟨S128x1024, .f32⟩
  | .hbm, ⟨21, _⟩ => ⟨S2x1024, .f32⟩
  | .hbm, ⟨22, _⟩ => ⟨S_, .i32⟩
  | .hbm, ⟨23, _⟩ => ⟨S128, .i32⟩
  | .hbm, ⟨24, _⟩ => ⟨S128, .i1⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S128, .i32⟩
  | .hbm, ⟨29, _⟩ => ⟨S128x1, .i32⟩
  | .hbm, ⟨30, _⟩ => ⟨S128x1024, .f32⟩
  | .hbm, ⟨31, _⟩ => ⟨S_, .i32⟩
  | .hbm, ⟨32, _⟩ => ⟨S128, .i32⟩
  | .hbm, ⟨33, _⟩ => ⟨S128, .i32⟩
  | .hbm, ⟨34, _⟩ => ⟨S_, .i32⟩
  | .hbm, ⟨35, _⟩ => ⟨S128, .i32⟩
  | .hbm, ⟨36, _⟩ => ⟨S128, .i1⟩
  | .hbm, ⟨37, _⟩ => ⟨S_, .i32⟩
  | .hbm, ⟨38, _⟩ => ⟨S128, .i32⟩
  | .hbm, ⟨39, _⟩ => ⟨S128, .i32⟩
  | .hbm, ⟨40, _⟩ => ⟨S128, .i32⟩
  | .hbm, ⟨41, _⟩ => ⟨S128x1, .i32⟩
  | .hbm, ⟨42, _⟩ => ⟨S128x1024, .f32⟩
  | .hbm, ⟨43, _⟩ => ⟨S128x1024, .f32⟩
  | .hbm, ⟨44, _⟩ => ⟨S_, .f32⟩
  | .hbm, ⟨45, _⟩ => ⟨S128x1024, .f32⟩
  | .hbm, ⟨46, _⟩ => ⟨S128x1024, .f32⟩
  | .hbm, ⟨47, _⟩ => ⟨S128x1024, .f32⟩
  | .hbm, ⟨48, _⟩ => ⟨S128x1024, .f32⟩
  | .hbm, ⟨49, _⟩ => ⟨S_, .f32⟩
  | .hbm, ⟨50, _⟩ => ⟨S128x1024, .f32⟩
  | .hbm, ⟨51, _⟩ => ⟨S128x1024, .f32⟩
  | .hbm, ⟨52, _⟩ => ⟨S128x1024, .f32⟩
  | .hbm, ⟨53, _⟩ => ⟨S128x1024, .f32⟩
  | .hbm, ⟨54, _⟩ => ⟨S_, .f32⟩
  | .hbm, ⟨55, _⟩ => ⟨S128x1024, .f32⟩
  | .hbm, ⟨56, _⟩ => ⟨S128x1024, .f32⟩
  | .hbm, ⟨57, _⟩ => ⟨S_, .f32⟩
  | .hbm, ⟨58, _⟩ => ⟨S128x1024, .f32⟩
  | .hbm, ⟨59, _⟩ => ⟨S128x1024, .f32⟩
  | .hbm, ⟨60, _⟩ => ⟨S_, .f32⟩
  | .hbm, ⟨61, _⟩ => ⟨S128, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S_, .f32⟩
  | .hbm, ⟨66, _⟩ => ⟨S_, .f32⟩
  | _, _ => ⟨S128x1024x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_c_6 : Ref sig .tc := ⟨.hbm, 34, rfl⟩
abbrev main_v20 : Ref sig .tc := ⟨.hbm, 35, rfl⟩
abbrev main_v21 : Ref sig .tc := ⟨.hbm, 36, rfl⟩
abbrev main_c_7 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_cst_11 : Ref sig .tc := ⟨.hbm, 57, rfl⟩
abbrev main_v38 : Ref sig .tc := ⟨.hbm, 58, rfl⟩
abbrev main_v39 : Ref sig .tc := ⟨.hbm, 59, rfl⟩
abbrev main_cst_12 : Ref sig .tc := ⟨.hbm, 60, rfl⟩
abbrev main_v40 : Ref sig .tc := ⟨.hbm, 61, rfl⟩
abbrev main_cst_13 : Ref sig .tc := ⟨.hbm, 62, rfl⟩
abbrev main_v41 : Ref sig .tc := ⟨.hbm, 63, rfl⟩
abbrev main_v42 : Ref sig .tc := ⟨.hbm, 64, rfl⟩
abbrev main_cst_14 : Ref sig .tc := ⟨.hbm, 65, rfl⟩
abbrev main_v43 : Ref sig .tc := ⟨.hbm, 66, rfl⟩

abbrev nD : Nat := 1
abbrev τ : Topo := Topo.v7x

variable {F : FTy → Type} [FloatOps F]

class Facts₀ : Prop where
  reducesTo_S128x1024x14x14_S128x1024_d2_3 : S128x1024x14x14.ReducesTo [2, 3] S128x1024
  h_S_ : 0 < S_.numel
  bcast_S_S128x1024 : S_.BroadcastsInDim S128x1024 (![] : Fin 0 → Fin S128x1024.rank)
  bcast_S_S128 : S_.BroadcastsInDim S128 (![] : Fin 0 → Fin S128.rank)
  bcast_S128_S128x1_0 : S128.BroadcastsInDim S128x1 (![0] : Fin 1 → Fin S128x1.rank)
  bcast_S128x1_S128x1024_0_1 : S128x1.BroadcastsInDim S128x1024 (![0, 1] : Fin 2 → Fin S128x1024.rank)
  shapeCasts_S2x1024x1x1_S2x1024 : S2x1024x1x1.ShapeCasts S2x1024
  reducesTo_S128x1024_S128_d1 : S128x1024.ReducesTo [1] S128
  reducesTo_S128_S_d0 : S128.ReducesTo [0] S_
  gather_S2x1024_S128x1_S128x1024_1_0_n_n_0_1_11024_wf : GatherDims.WF S2x1024 S128x1 S128x1024 [1] [0] [] [0] [] 1 ![1, 1024]

variable [Facts₀]

def gather_S2x1024_S128x1_S128x1024_1_0_n_n_0_1_11024 : GatherDims S2x1024 S128x1 S128x1024 where
  offsetDims := [1]
  collapsedSliceDims := [0]
  operandBatchingDims := []
  startIndicesBatchingDims := []
  startIndexMap := [0]
  indexVectorDim := 1
  sliceSizes := ![1, 1024]
  wf := gather_S2x1024_S128x1_S128x1024_1_0_n_n_0_1_11024_wf

class Facts : Prop extends Facts₀ where

variable [Facts]
-- ==== Proof.Spec.lean ====
/-
  The quantity both programs compute, written once over the five argument arrays, on the extended reals.

  Per sample b and channel c: the two feature maps are averaged over their 14 × 14 positions; the sample's
  anchor is the first average where its quality word is 1 and the second elsewhere; the positive and the
  negative are the two rows of the table, in the order the sample's label word says; the channel's term is
  the hinge max(|anchor − positive + ε| − |anchor − negative + ε| + 1, 0). A sample's loss is the mean of
  its 1024 terms and the result is the sum of the 128 losses.

  A choice between two values by a word that is 0 or 1 is written as the weighted sum t·a + (1 − t)·b
  with t the word read as 0 or 1: at t = 1 it is a, at t = 0 it is b (0 · x = 0 on the extended reals,
  infinities included), which is how a selection and a table lookup by the same word meet it.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The hinge's small offset: the f32 word for 1e-6 that both programs carry, at its exact value. -/
def eps : EReal := Ideal.ofBits .f32 0x358637BD#32

/-- The absolute value on the extended reals. -/
def absE (x : EReal) : EReal := max x (-x)

/-- One channel's hinge term from the anchor s, the positive p and the negative n. -/
def hinge (s p n : EReal) : EReal := max (absE (s - p + eps) - absE (s - n + eps) + 1) 0

/-- A 32-bit word read as 1 when it is the word 1 and as 0 otherwise. -/
def isOne (w : BitVec 32) : EReal := if w = 1#32 then 1 else 0

/-- The weighted sum t·a + (1 − t)·b. -/
def mix (t a b : EReal) : EReal := t * a + (1 - t) * b

theorem one_sub_one : (1 : EReal) - 1 = 0 := by
  rw [← EReal.coe_one, ← EReal.coe_sub, sub_self, EReal.coe_zero]

theorem one_sub_zero : (1 : EReal) - 0 = 1 := by
  rw [← EReal.coe_one, ← EReal.coe_zero, ← EReal.coe_sub, sub_zero]

theorem mix_one (a b : EReal) : mix 1 a b = a := by
  unfold mix; rw [one_mul, one_sub_one, zero_mul, add_zero]

theorem mix_zero (a b : EReal) : mix 0 a b = b := by
  unfold mix; rw [zero_mul, one_sub_zero, one_mul, zero_add]

theorem isOne_of_eq {w : BitVec 32} (h : w = 1#32) : isOne w = 1 := by unfold isOne; rw [if_pos h]
theorem isOne_of_ne {w : BitVec 32} (h : w ≠ 1#32) : isOne w = 0 := by unfold isOne; rw [if_neg h]

/-- The mean of a feature map over its 14 × 14 positions at sample b, channel c. -/
def pool (x : FVec Ideal ⟨4, ![128, 1024, 14, 14]⟩ .f32) (b : Fin 128) (c : Fin 1024) : EReal :=
  (∑ h : Fin 14, ∑ w : Fin 14, x (ix4 b c h w)) * ((1 / 196 : ℝ) : EReal)

/-- The hinge term of sample b, channel c. -/
def term (x xp : FVec Ideal ⟨4, ![128, 1024, 14, 14]⟩ .f32) (a : FVec Ideal ⟨4, ![2, 1024, 1, 1]⟩ .f32)
    (q l : IVec ⟨1, ![128]⟩ 32) (b : Fin 128) (c : Fin 1024) : EReal :=
  hinge (mix (isOne (q (ix1 b))) (pool x b c) (pool xp b c))
    (mix (isOne (l (ix1 b))) (a (ix4 1 c 0 0)) (a (ix4 0 c 0 0)))
    (mix (isOne (l (ix1 b))) (a (ix4 0 c 0 0)) (a (ix4 1 c 0 0)))

/-- The result: the sum over the samples of the mean over the channels of the hinge terms. -/
def total (x xp : FVec Ideal ⟨4, ![128, 1024, 14, 14]⟩ .f32) (a : FVec Ideal ⟨4, ![2, 1024, 1, 1]⟩ .f32)
    (q l : IVec ⟨1, ![128]⟩ 32) : EReal :=
  ∑ b : Fin 128, (∑ c : Fin 1024, term x xp a q l b c) * ((1 / 1024 : ℝ) : EReal)

end Cert.Spec

end
-- ==== Proof.LibSegment.lean ====
import Idealize.ShloMosaic.PureOps.Ideal
import Idealize.ShloMosaic.Lib.ValueIdx
import Idealize.ShloMosaic.Lib.StableHlo.Predicate
import Mathlib.Algebra.BigOperators.Group.Finset.Basic

/-!
# Row-wise scatter-add and row gather, read at an index

Two index-level reads of the host operations on a rank-2 table whose ROWS are addressed by an [E × 1] column of
start indices.

* A scatter with an additive body whose updates are whole rows: update row e is added into the operand row named
  by the e-th start index, read as a signed integer; a row whose start index is negative or past the last row is
  dropped. At (n, k) the result is the operand plus the sum, over the update rows whose start index is n, of
  their k-th entry.
* A gather of whole rows: result row e is the operand row named by the e-th start index, read signed and clamped
  into the table.
-/

noncomputable section

open scoped BigOperators

namespace Cert.Segment

open Idealize.ShloMosaic Idealize.ShloMosaic.ValueIdx
open Idealize.ShloMosaic.StableHlo.Predicate (ixP)

/-! ## The scatter: where update (e, k') lands -/

section Scatter

variable {N C E w : Nat} (d : ScatterDims ⟨2, ![N, C]⟩ ⟨2, ![E, 1]⟩ ⟨2, ![E, C]⟩)

/-- A coordinate of a rank-2 index on an axis known to be the first. -/
private theorem ix2_val_of_eq_zero {n0 n1 : Nat} (a : Fin n0) (b : Fin n1) (X : Fin 2) (hX : X = 0) :
    ((ix2 a b) X).val = a.val := by
  subst hX; rfl

/-- A coordinate of a rank-2 index on an axis known to be the second. -/
private theorem ix2_val_of_eq_one {n0 n1 : Nat} (a : Fin n0) (b : Fin n1) (X : Fin 2) (hX : X = 1) :
    ((ix2 a b) X).val = b.val := by
  subst hX; rfl

/-- An axis of a rank-2 shape that is not the second is the first. -/
private theorem fin2_eq_zero {X : Fin 2} (h : X ≠ 1) : X = 0 :=
  match X, h with
  | ⟨0, _⟩, _ => rfl
  | ⟨1, _⟩, h => absurd rfl h

/-- With the window on the updates' axis 1, the only update scatter axis is axis 0. -/
private theorem uScatter_eq_zero (huw : d.updateWindowDims = [1]) (X : Fin 2) (hX : X ∈ d.uScatter) : X = 0 := by
  have h2 := (List.mem_filter.1 hX).2
  rw [huw] at h2
  exact fin2_eq_zero (by simpa using h2)

/-- The start-indices index update (e, k') reads its one start component at: row e of the column. -/
theorem siIdx_rows (hsd : d.scatterDimsToOperandDims = [0]) (huw : d.updateWindowDims = [1]) (hivd : d.indexVectorDim = 1)
    (e : Fin E) (k' : Fin C) (c : Fin d.scatterDimsToOperandDims.length) :
    d.siIdx (ix2 e k') c = ixP e := by
  funext b
  match b with
  | ⟨0, _⟩ =>
    -- the one update scatter axis is axis 0 of the updates (axis 1 is the window axis); it reads the column's axis 0
    unfold ScatterDims.siIdx
    rw [dif_neg (by rw [hivd]; simp)]
    unfold ScatterDims.siCoord
    apply Fin.ext
    simp only [Fin.val_cast]
    refine ix2_val_of_eq_zero e k' _ ?_
    exact uScatter_eq_zero d huw _ (List.getElem_mem _)
  | ⟨1, _⟩ =>
    unfold ScatterDims.siIdx
    rw [dif_pos (by rw [hivd])]
    apply Fin.ext
    show c.val = 0
    have hl : d.scatterDimsToOperandDims.length = 1 := by rw [hsd]; rfl
    have := c.isLt
    omega

/-- On the operand's axis 0 the window of update (e, k') starts at the start index of row e, read signed … -/
theorem start_zero (hsd : d.scatterDimsToOperandDims = [0]) (huw : d.updateWindowDims = [1]) (hivd : d.indexVectorDim = 1)
    (idx : IVec ⟨2, ![E, 1]⟩ w) (e : Fin E) (k' : Fin C) :
    d.start (ix2 e k') idx (0 : Fin 2) = (idx (ixP e)).toInt := by
  unfold ScatterDims.start
  rw [dif_pos (show (0 : Fin 2) ∈ d.scatterDimsToOperandDims by rw [hsd]; exact List.mem_singleton.mpr rfl),
    siIdx_rows d hsd huw hivd]

/-- … and on axis 1, which the start index does not name, at 0. -/
theorem start_one (hsd : d.scatterDimsToOperandDims = [0]) (idx : IVec ⟨2, ![E, 1]⟩ w) (e : Fin E) (k' : Fin C) :
    d.start (ix2 e k') idx (1 : Fin 2) = 0 := by
  unfold ScatterDims.start
  rw [dif_neg (by rw [hsd]; simp)]

/-- The operand's axis 0 is inserted: the window coordinate there is 0 … -/
theorem window_zero (hiw : d.insertedWindowDims = [0]) (e : Fin E) (k' : Fin C) :
    d.window (ix2 e k') (0 : Fin 2) = 0 := by
  unfold ScatterDims.window
  rw [dif_neg]
  intro h
  have h2 := (List.mem_filter.1 h).2
  rw [hiw] at h2
  simp at h2

/-- … and on axis 1, the one kept axis, it is the update's column k'. -/
theorem window_one (huw : d.updateWindowDims = [1]) (hiw : d.insertedWindowDims = [0]) (e : Fin E) (k' : Fin C) :
    d.window (ix2 e k') (1 : Fin 2) = k'.val := by
  unfold ScatterDims.window
  have hmem : (1 : Fin 2) ∈ d.sKept := List.mem_filter.2 ⟨List.mem_finRange _, by rw [hiw]; simp⟩
  rw [dif_pos hmem]
  refine ix2_val_of_eq_one e k' _ ?_
  have hall : ∀ X ∈ d.updateWindowDims, X = 1 := by
    intro X hX; rw [huw] at hX; exact List.mem_singleton.1 hX
  exact hall _ (List.getElem_mem _)

/-- WHERE AN UPDATE LANDS. Update (e, k') lands on (n, k) exactly when the start index of row e, read signed, is n and
    k' = k; with a start index that is negative or at least N it lands nowhere. -/
theorem resultIdx?_rows (huw : d.updateWindowDims = [1]) (hiw : d.insertedWindowDims = [0])
    (hsd : d.scatterDimsToOperandDims = [0]) (hivd : d.indexVectorDim = 1)
    (idx : IVec ⟨2, ![E, 1]⟩ w) (e : Fin E) (k' : Fin C) (n : Fin N) (k : Fin C) :
    d.resultIdx? (ix2 e k') idx = some (ix2 n k) ↔ (idx (ixP e)).toInt = (n.val : ℤ) ∧ k' = k := by
  have hs0 := start_zero d hsd huw hivd idx e k'
  have hs1 := start_one d hsd idx e k'
  have hw0 := window_zero d hiw e k'
  have hw1 := window_one d huw hiw e k'
  have hn := n.isLt
  have hk' := k'.isLt
  unfold ScatterDims.resultIdx?
  constructor
  · intro h
    split at h
    · next hc =>
      have h' := Option.some.inj h
      have h0 : (d.start (ix2 e k') idx (0 : Fin 2) + (d.window (ix2 e k') (0 : Fin 2) : ℤ)).toNat = n.val :=
        congrArg (fun f : (⟨2, ![N, C]⟩ : Shape).Idx => (f (0 : Fin 2)).val) h'
      have h1 : (d.start (ix2 e k') idx (1 : Fin 2) + (d.window (ix2 e k') (1 : Fin 2) : ℤ)).toNat = k.val :=
        congrArg (fun f : (⟨2, ![N, C]⟩ : Shape).Idx => (f (1 : Fin 2)).val) h'
      have hc0 := (hc (0 : Fin 2)).1
      rw [hs0, hw0] at h0 hc0
      rw [hs1, hw1] at h1
      exact ⟨by omega, Fin.ext (by omega)⟩
    · exact absurd h (by simp)
  · rintro ⟨h0, rfl⟩
    have hc : ∀ a, 0 ≤ d.start (ix2 e k') idx a + (d.window (ix2 e k') a : ℤ)
        ∧ d.start (ix2 e k') idx a + (d.window (ix2 e k') a : ℤ) < ((⟨2, ![N, C]⟩ : Shape).size a : ℤ) := by
      refine Fin.forall_fin_two.2 ⟨?_, ?_⟩
      · rw [hs0, hw0]
        show 0 ≤ _ ∧ _ < (N : ℤ)
        omega
      · rw [hs1, hw1]
        show 0 ≤ _ ∧ _ < (C : ℤ)
        omega
    rw [dif_pos hc]
    congr 1
    refine funext (Fin.forall_fin_two.2 ⟨?_, ?_⟩)
    · apply Fin.ext
      show (d.start (ix2 e k') idx (0 : Fin 2) + (d.window (ix2 e k') (0 : Fin 2) : ℤ)).toNat = n.val
      rw [hs0, hw0]; omega
    · apply Fin.ext
      show (d.start (ix2 e k') idx (1 : Fin 2) + (d.window (ix2 e k') (1 : Fin 2) : ℤ)).toNat = k'.val
      rw [hs1, hw1]; omega

/-- THE SCATTER READ AT (n, k): the operand there plus the k-th entries of the update rows whose start index, read
    signed, is n. (The update indices landing on (n, k) are the (e, k) with start index n: one per such row e.) -/
theorem hostScatterAdd_rows (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w) (upd : (⟨2, ![E, C]⟩ : Shape).Idx → EReal)
    (n : Fin N) (k : Fin C) :
    Ideal.hostScatterAdd d x idx upd (ix2 n k)
      = x (ix2 n k) + ∑ e ∈ Finset.univ.filter (fun e : Fin E => (idx (ixP e)).toInt = (n.val : ℤ)), upd (ix2 e k) := by
  unfold Ideal.hostScatterAdd
  congr 1
  -- every update index is (e, k'); it is in the left sum exactly when its start index is n and k' = k
  have hrow : ∀ j : (⟨2, ![E, C]⟩ : Shape).Idx,
      d.resultIdx? j idx = some (ix2 n k) ↔ (idx (ixP (j 0))).toInt = (n.val : ℤ) ∧ j 1 = k := by
    intro j
    obtain ⟨a, b, rfl⟩ : ∃ a b, j = ix2 a b := ⟨_, _, eq_ix2 j⟩
    exact resultIdx?_rows d huw hiw hsd hivd idx a b n k
  refine Finset.sum_nbij' (fun j => j 0) (fun e => ix2 e k) ?_ ?_ ?_ ?_ ?_
  · intro j hj
    exact Finset.mem_filter.2 ⟨Finset.mem_univ _, ((hrow j).1 (Finset.mem_filter.1 hj).2).1⟩
  · intro e he
    exact Finset.mem_filter.2 ⟨Finset.mem_univ _, (hrow (ix2 e k)).2 ⟨(Finset.mem_filter.1 he).2, rfl⟩⟩
  · intro j hj
    have hk := ((hrow j).1 (Finset.mem_filter.1 hj).2).2
    obtain ⟨a, b, rfl⟩ : ∃ a b, j = ix2 a b := ⟨_, _, eq_ix2 j⟩
    have hb : b = k := hk
    subst hb; rfl
  · intro e _
    rfl
  · intro j hj
    have hk := ((hrow j).1 (Finset.mem_filter.1 hj).2).2
    obtain ⟨a, b, rfl⟩ : ∃ a b, j = ix2 a b := ⟨_, _, eq_ix2 j⟩
    have hb : b = k := hk
    subst hb; rfl

end Scatter

/-! ## The gather of rows -/

section Gather

variable {α : Type} {N C E w : Nat} (d : GatherDims ⟨2, ![N, C]⟩ ⟨2, ![E, 1]⟩ ⟨2, ![E, C]⟩)

/-- With the offset on the result's axis 1, the only batch axis of the result is axis 0. -/
private theorem batchDims_eq_zero (hoff : d.offsetDims = [1]) (X : Fin 2) (hX : X ∈ d.batchDims) : X = 0 := by
  have h2 := (List.mem_filter.1 hX).2
  rw [hoff] at h2
  exact fin2_eq_zero (by simpa using h2)

/-- The start-indices index result (e, k) reads its one start component at: row e of the column. -/
theorem gather_siIdx_rows (hoff : d.offsetDims = [1]) (hsim : d.startIndexMap = [0]) (hivd : d.indexVectorDim = 1)
    (e : Fin E) (k : Fin C) (c : Fin d.startIndexMap.length) :
    d.siIdx (ix2 e k) c = ixP e := by
  funext b
  match b with
  | ⟨0, _⟩ =>
    -- the result's one batch axis is its axis 0 (axis 1 is the offset axis); it reads the column's axis 0
    unfold GatherDims.siIdx
    rw [dif_neg (by rw [hivd]; simp)]
    unfold GatherDims.siCoord
    apply Fin.ext
    simp only [Fin.val_cast]
    exact ix2_val_of_eq_zero e k _ (batchDims_eq_zero d hoff _ (List.getElem_mem _))
  | ⟨1, _⟩ =>
    unfold GatherDims.siIdx
    rw [dif_pos (by rw [hivd])]
    apply Fin.ext
    show c.val = 0
    have hl : d.startIndexMap.length = 1 := by rw [hsim]; rfl
    have := c.isLt
    omega

/-- THE GATHER READ AT (e, k): the operand's row named by the start index of e, read signed and clamped into
    [0, N − 1], at column k. (Axis 0 of the operand is collapsed and start-indexed, with slice size 1 there, so the
    row is the clamped start alone; axis 1 is not start-indexed, so the column is the result's offset coordinate.) -/
theorem gather_rows (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (k : Fin C) (hN : 0 < N) :
    Host.gather d x idx (ix2 e k) = x (ix2 ⟨min (idx (ixP e)).toInt.toNat (N - 1), by omega⟩ k) := by
  unfold Host.gather
  congr 1
  have hb : ∀ a : Fin 2, a ∉ d.operandBatchingDims := fun a => by rw [hob]; exact List.not_mem_nil
  refine funext (Fin.forall_fin_two.2 ⟨?_, ?_⟩)
  · -- the row
    apply Fin.ext
    show d.start (ix2 e k) idx (0 : Fin 2) + d.batchCoord (ix2 e k) (0 : Fin 2) + d.offCoord (ix2 e k) (0 : Fin 2)
      = min (idx (ixP e)).toInt.toNat (N - 1)
    have hk0 : (0 : Fin 2) ∉ d.sKept := by rw [GatherDims.mem_sKept, hcoll]; simp
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    rw [GatherDims.batchCoord_eq_zero _ _ _ (hb 0), GatherDims.offCoord_eq_zero _ _ _ hk0, Nat.add_zero]
    unfold GatherDims.start
    rw [dif_pos hm, gather_siIdx_rows d hoff hsim hivd, hsl]
    rfl
  · -- the column
    apply Fin.ext
    show d.start (ix2 e k) idx (1 : Fin 2) + d.batchCoord (ix2 e k) (1 : Fin 2) + d.offCoord (ix2 e k) (1 : Fin 2) = k.val
    have hk1 : (1 : Fin 2) ∈ d.sKept := by rw [GatherDims.mem_sKept, hcoll, hob]; simp
    have hs1 : d.start (ix2 e k) idx (1 : Fin 2) = 0 := by
      unfold GatherDims.start
      rw [dif_neg (by rw [hsim]; simp)]
    rw [hs1, GatherDims.batchCoord_eq_zero _ _ _ (hb 1), Nat.zero_add]
    unfold GatherDims.offCoord
    rw [dif_pos hk1]
    refine ix2_val_of_eq_one e k _ ?_
    have hall : ∀ X ∈ d.offsetDims, X = 1 := by
      intro X hX; rw [hoff] at hX; exact List.mem_singleton.1 hX
    exact hall _ (List.getElem_mem _)

end Gather

end Cert.Segment

end
-- ==== Proof.SumLaws.lean ====
/-
  Two re-indexings of finite sums and the exact values of the float words the two programs carry.

  A sum over 128 samples is the sum over the 2 sample tiles of the sums over a tile's 64 rows; a sum over
  1024 channels is the sum over the 8 channel tiles of the sums over a tile's 128 lanes; a sum over the 196
  flattened positions is the double sum over the 14 × 14 positions (position k is row k / 14, column k % 14).
-/
import proofs.«406197_j14147622273725_3_alg».proof.Proof.Spec
import Mathlib.Algebra.BigOperators.Fin
import Mathlib.Logic.Equiv.Fin.Basic

noncomputable section

open scoped BigOperators

namespace Cert.Spec

open Idealize.ShloMosaic

theorem sum_samples (f : Fin 128 → EReal) :
    ∑ b : Fin 128, f b = ∑ i : Fin 2, ∑ r : Fin 64, f ⟨64 * i.val + r.val, by have := i.isLt; have := r.isLt; omega⟩ := by
  -- the pair (tile, row) ↦ row + 64 · tile is a bijection of the 2 × 64 pairs with the 128 samples
  calc ∑ b : Fin 128, f b
      = ∑ p : Fin 2 × Fin 64, f (finProdFinEquiv p) :=
        (Equiv.sum_comp (finProdFinEquiv (m := 2) (n := 64)) f).symm
    _ = ∑ i : Fin 2, ∑ r : Fin 64, f (finProdFinEquiv (i, r)) := Fintype.sum_prod_type _
    _ = _ := by
        refine Finset.sum_congr rfl fun i _ => Finset.sum_congr rfl fun r _ => ?_
        congr 1
        apply Fin.ext
        simp only [finProdFinEquiv_apply_val]
        omega

theorem sum_channels (f : Fin 1024 → EReal) :
    ∑ c : Fin 1024, f c = ∑ j : Fin 8, ∑ l : Fin 128, f ⟨128 * j.val + l.val, by have := j.isLt; have := l.isLt; omega⟩ := by
  -- the pair (tile, lane) ↦ lane + 128 · tile is a bijection of the 8 × 128 pairs with the 1024 channels
  calc ∑ c : Fin 1024, f c
      = ∑ p : Fin 8 × Fin 128, f (finProdFinEquiv p) :=
        (Equiv.sum_comp (finProdFinEquiv (m := 8) (n := 128)) f).symm
    _ = ∑ j : Fin 8, ∑ l : Fin 128, f (finProdFinEquiv (j, l)) := Fintype.sum_prod_type _
    _ = _ := by
        refine Finset.sum_congr rfl fun j _ => Finset.sum_congr rfl fun l _ => ?_
        congr 1
        apply Fin.ext
        simp only [finProdFinEquiv_apply_val]
        omega

theorem sum_positions (f : Fin 14 → Fin 14 → EReal) :
    ∑ k : Fin 196, f ⟨k.val / 14, by have := k.isLt; omega⟩ ⟨k.val % 14, Nat.mod_lt _ (by decide)⟩ = ∑ h : Fin 14, ∑ w : Fin 14, f h w := by
  -- position k = w + 14 · h has row k / 14 = h and column k % 14 = w
  calc ∑ k : Fin 196, f ⟨k.val / 14, by have := k.isLt; omega⟩ ⟨k.val % 14, Nat.mod_lt _ (by decide)⟩
      = ∑ p : Fin 14 × Fin 14,
          f ⟨(finProdFinEquiv p).val / 14, by have := (finProdFinEquiv p).isLt; omega⟩
            ⟨(finProdFinEquiv p).val % 14, Nat.mod_lt _ (by decide)⟩ :=
        (Equiv.sum_comp (finProdFinEquiv (m := 14) (n := 14))
          (fun k : Fin 196 => f ⟨k.val / 14, by have := k.isLt; omega⟩ ⟨k.val % 14, Nat.mod_lt _ (by decide)⟩)).symm
    _ = ∑ h : Fin 14, ∑ w : Fin 14,
          f ⟨(finProdFinEquiv (h, w)).val / 14, by have := (finProdFinEquiv (h, w)).isLt; omega⟩
            ⟨(finProdFinEquiv (h, w)).val % 14, Nat.mod_lt _ (by decide)⟩ := Fintype.sum_prod_type _
    _ = _ := by
        refine Finset.sum_congr rfl fun h _ => Finset.sum_congr rfl fun w _ => ?_
        have hh := h.isLt
        have hw := w.isLt
        congr 1 <;> apply Fin.ext <;> simp only [finProdFinEquiv_apply_val] <;> omega

/-- The f32 word of 1.0 is the real 1. -/
theorem ofBits_one : Ideal.ofBits .f32 0x3F800000#32 = (1 : EReal) := by
  simp [Ideal.ofBits, Ideal.ieee, -EReal.coe_mul]; norm_num

/-- The f32 word 0x3A800000 is exactly 2⁻¹⁰. -/
theorem ofBits_inv1024 : Ideal.ofBits .f32 0x3A800000#32 = ((1 / 1024 : ℝ) : EReal) := by
  simp [Ideal.ofBits, Ideal.ieee, -EReal.coe_mul]; norm_num

/-- The f32 word of 1024.0. -/
theorem ofBits_1024 : Ideal.ofBits .f32 0x44800000#32 = ((1024 : ℝ) : EReal) := by
  simp [Ideal.ofBits, Ideal.ieee, -EReal.coe_mul]; norm_num

/-- The f32 word of 196.0. -/
theorem ofBits_196 : Ideal.ofBits .f32 0x43440000#32 = ((196 : ℝ) : EReal) := by
  simp [Ideal.ofBits, Ideal.ieee, -EReal.coe_mul]; norm_num

/-- The host's quotient by 1024 is the product with 1/1024, on every extended real. -/
theorem div_1024 (x : EReal) : Ideal.div x ((1024 : ℝ) : EReal) = x * ((1 / 1024 : ℝ) : EReal) :=
  Ideal.div_coe (by norm_num : (1024 : ℝ) ≠ 0) x

/-- The host's quotient by 196 is the product with 1/196, on every extended real. -/
theorem div_196 (x : EReal) : Ideal.div x ((196 : ℝ) : EReal) = x * ((1 / 196 : ℝ) : EReal) :=
  Ideal.div_coe (by norm_num : (196 : ℝ) ≠ 0) x

end Cert.Spec

end
-- ==== Proof.RefSide.lean ====
/-
  The reference's result is the specification's total, and the precondition bounds the label words.
-/
import proofs.«406197_j14147622273725_3_alg».proof.Proof.Gen.ReferenceIdeal.Read
import proofs.«406197_j14147622273725_3_alg».proof.Proof.Gen.Pre_finite_inputs
import proofs.«406197_j14147622273725_3_alg».proof.Proof.Spec
import proofs.«406197_j14147622273725_3_alg».proof.Proof.SumLaws
import proofs.«406197_j14147622273725_3_alg».proof.Proof.LibSegment
import Idealize.ShloMosaic.Lib.StableHlo.Predicate
import Idealize.ShloMosaic.Lib.ReduceAll
import Idealize.ShloMosaic.Lib.ValueIdx

noncomputable section

open scoped BigOperators

namespace Cert.RefSide

open Idealize.ShloMosaic Idealize.ShloMosaic.ValueIdx

/-- Under the precondition every label word is 0 or 1 (its last conjunct: 0 ≤ label ≤ 1, signed, over all 128). -/
theorem label_range (x0 x1 : FVec Ideal Cert.Pre_finite_inputs.S128x1024x14x14 .f32)
    (x2 : FVec Ideal Cert.Pre_finite_inputs.S2x1024x1x1 .f32) (x3 x4 : IVec Cert.Pre_finite_inputs.S128 32)
    (h : Cert.Pre_finite_inputs.fn (F := Ideal) x0 x1 x2 x3 x4 = fun _ => 1#1) (b : Fin 128) :
    x4 (ix1 b) = 0#32 ∨ x4 (ix1 b) = 1#32 := by
  have h0 := congrFun h ValueIdx.ix0
  dsimp only [Cert.Pre_finite_inputs.fn, Cert.Pre_finite_inputs.fn_part1] at h0
  -- the last conjunct: the conjunction over all samples of (0 ≤ label) ∧ (label ≤ 1) is the bit 1
  have hall := (IntOp.andi_eq_one.1 h0).2
  haveI : Subsingleton Cert.Pre_finite_inputs.S_.Idx := ⟨fun a c => funext fun d => d.elim0⟩
  -- so it is 1 at sample b, and both compares are 1 there
  have hb := Host.reduce_andi_all _ _ _ _ _ hall (ix1 b)
  obtain ⟨hge, hle⟩ := IntOp.andi_eq_one.1 hb
  have hge' : (0#32).toInt ≤ (x4 (ix1 b)).toInt := by
    have := IntOp.cmpi_sge.1 hge
    rwa [StableHlo.Predicate.bcast_scalar _ (by decide)] at this
  have hle' : (x4 (ix1 b)).toInt ≤ (1#32).toInt := by
    have := IntOp.cmpi_sle.1 hle
    rwa [StableHlo.Predicate.bcast_scalar _ (by decide)] at this
  have e0 : (0#32).toInt = 0 := by decide
  have e1 : (1#32).toInt = 1 := by decide
  rw [e0] at hge'
  rw [e1] at hle'
  -- a signed value between 0 and 1 is 0 or 1, and a word is determined by its signed value
  have : (x4 (ix1 b)).toInt = 0 ∨ (x4 (ix1 b)).toInt = 1 := by omega
  rcases this with h | h
  · left; exact BitVec.eq_of_toInt_eq (by rw [h, e0])
  · right; exact BitVec.eq_of_toInt_eq (by rw [h, e1])

/-! ## The sum over the 14 × 14 positions -/

/-- Dropping the two position axes of (b, c, h, w) leaves (b, c). -/
theorem drop_ix4 (hr : (⟨4, ![128, 1024, 14, 14]⟩ : Shape).ReducesTo [2, 3] ⟨2, ![128, 1024]⟩)
    (b : Fin 128) (c : Fin 1024) (p : Fin 14) (q : Fin 14) : hr.drop (ix4 b c p q) = ix2 b c := by
  funext a
  match a with
  | ⟨0, _⟩ => rfl
  | ⟨1, _⟩ => rfl

/-- An index that drops to (b, c) is (b, c, its two position coordinates). -/
theorem eq_ix4_of_drop (hr : (⟨4, ![128, 1024, 14, 14]⟩ : Shape).ReducesTo [2, 3] ⟨2, ![128, 1024]⟩)
    (i : (⟨4, ![128, 1024, 14, 14]⟩ : Shape).Idx) (b : Fin 128) (c : Fin 1024) (e : hr.drop i = ix2 b c) :
    i = ix4 b c (i 2) (i 3) := by
  funext a
  match a with
  | ⟨0, _⟩ => exact congrFun e 0
  | ⟨1, _⟩ => exact congrFun e 1
  | ⟨2, _⟩ => rfl
  | ⟨3, _⟩ => rfl

/-- The positions of sample b, channel c, as indices of the feature map. -/
def posEmb (b : Fin 128) (c : Fin 1024) : Fin 14 × Fin 14 ↪ (⟨4, ![128, 1024, 14, 14]⟩ : Shape).Idx :=
  ⟨fun p => ix4 b c p.1 p.2, fun p p' e => Prod.ext (congrFun e 2) (congrFun e 3)⟩

/-- The indices summed into (b, c) are exactly those positions. -/
theorem filter_drop (hr : (⟨4, ![128, 1024, 14, 14]⟩ : Shape).ReducesTo [2, 3] ⟨2, ![128, 1024]⟩)
    (b : Fin 128) (c : Fin 1024) :
    Finset.univ.filter (fun i : (⟨4, ![128, 1024, 14, 14]⟩ : Shape).Idx => hr.drop i = ix2 b c)
      = Finset.univ.map (posEmb b c) := by
  ext i
  simp only [Finset.mem_filter, Finset.mem_univ, true_and, Finset.mem_map, posEmb, Function.Embedding.coeFn_mk]
  exact ⟨fun e => ⟨(i 2, i 3), (eq_ix4_of_drop hr i b c e).symm⟩, fun ⟨p, hp⟩ => hp ▸ drop_ix4 hr b c p.1 p.2⟩

/-- The host's sum over the two position axes, read at (b, c): the initial value plus the double sum. -/
theorem reduce_hw (hr : (⟨4, ![128, 1024, 14, 14]⟩ : Shape).ReducesTo [2, 3] ⟨2, ![128, 1024]⟩)
    (x : (⟨4, ![128, 1024, 14, 14]⟩ : Shape).Idx → EReal) (init : EReal) (b : Fin 128) (c : Fin 1024) :
    Ideal.hostReduceAdd hr x init (ix2 b c) = init + ∑ p : Fin 14, ∑ q : Fin 14, x (ix4 b c p q) := by
  unfold Ideal.hostReduceAdd
  rw [filter_drop, Finset.sum_map, Fintype.sum_prod_type]
  rfl

/-! ## The reference's index maps at coordinates -/

open Cert.ReferenceIdeal Cert.ReferenceIdeal.Read
open Idealize.ShloMosaic.StableHlo.Predicate (ixP)

theorem idx8 (b : Fin 128) : idx_main_v8 (ixP b) = ix1 b := by
  funext a; match a with | ⟨0, _⟩ => rfl
theorem idx16 (b : Fin 128) : idx_main_v16 (ixP b) = ix1 b := by
  funext a; match a with | ⟨0, _⟩ => rfl
theorem idx25 (b : Fin 128) : idx_main_v25 (ixP b) = ix1 b := by
  funext a; match a with | ⟨0, _⟩ => rfl
theorem idxc0 (b : Fin 128) (c : Fin 1024) : idx_main_call0_v0 (ix2 b c) = ixP b := by
  funext a; match a with | ⟨0, _⟩ => rfl | ⟨1, _⟩ => rfl
theorem idx40 (b : Fin 128) (c : Fin 1024) : idx_main_v40 (ix1 b) c = ix2 b c := by
  funext a; match a with | ⟨0, _⟩ => rfl | ⟨1, _⟩ => rfl
/-- The table's reshape reads row r, channel c at (r, c, 0, 0). -/
theorem idx10 (r : Fin 2) (c : Fin 1024) : idx_main_v10 (ix2 r c) = ix4 r c 0 0 := by
  funext a
  match a with
  | ⟨0, _⟩ => exact Fin.ext (by show (r.val * 1024 + c.val) / 1024 = r.val; have := c.isLt; omega)
  | ⟨1, _⟩ => exact Fin.ext (by show (r.val * 1024 + c.val) / 1 % 1024 = c.val; have := c.isLt; omega)
  | ⟨2, _⟩ => rfl
  | ⟨3, _⟩ => rfl

/-! ## The two table rows -/

/-- A row gather of the reshaped table whose clamped start index is r reads the table at (r, c, 0, 0). -/
theorem gather_row (x2 : FVec Ideal S2x1024x1x1 .f32) (idx : IVec S128x1 32) (b : Fin 128) (c : Fin 1024) (r : Fin 2)
    (hr : min (idx (ixP b)).toInt.toNat (2 - 1) = r.val) :
    Host.gather gather_S2x1024_S128x1_S128x1024_1_0_n_n_0_1_11024 (val_main_v10 (F := Ideal) x2) idx (ix2 b c)
      = x2 (ix4 r c 0 0) := by
  refine (Cert.Segment.gather_rows _ rfl rfl rfl rfl rfl _ idx b c (by decide)).trans ?_
  rw [val_main_v10_apply, ← idx10 r c]
  exact congrArg (fun r' => x2 (idx_main_v10 (ix2 r' c))) (Fin.ext hr)

/-- The start index of the positive row: the label word, normalised as the program does (a negative one plus 2). -/
theorem start_pos (x4 : IVec S128 32) (b : Fin 128) :
    val_main_v16 (F := Ideal) x4 (ixP b)
      = Scalar.select (IntOp.cmpi .slt (x4 (ix1 b)) 0#32) (IntOp.addi (x4 (ix1 b)) 2#32) (x4 (ix1 b)) := by
  rw [val_main_v16_apply, idx16, val_main_v15_apply, val_main_v12_apply, val_main_v14_apply, val_main_v11_apply,
    val_main_v13_apply, val_main_c_3_apply, val_main_c_4_apply]

/-- The start index of the negative row: 1 − label, normalised the same way. -/
theorem start_neg (x4 : IVec S128 32) (b : Fin 128) :
    val_main_v25 (F := Ideal) x4 (ixP b)
      = Scalar.select (IntOp.cmpi .slt (IntOp.subi 1#32 (x4 (ix1 b))) 0#32) (IntOp.addi (IntOp.subi 1#32 (x4 (ix1 b))) 2#32)
          (IntOp.subi 1#32 (x4 (ix1 b))) := by
  rw [val_main_v25_apply, idx25, val_main_v24_apply, val_main_v21_apply, val_main_v23_apply, val_main_v19_apply,
    val_main_v20_apply, val_main_v22_apply, val_main_v18_apply, val_main_c_5_apply, val_main_c_6_apply, val_main_c_7_apply]

/-- The positive: the table's row 1 where the label word is 1 and row 0 where it is 0. -/
theorem pos_read (x2 : FVec Ideal S2x1024x1x1 .f32) (x4 : IVec S128 32) (b : Fin 128) (c : Fin 1024)
    (hl : x4 (ix1 b) = 0#32 ∨ x4 (ix1 b) = 1#32) :
    val_main_v17 (F := Ideal) x2 x4 (ix2 b c)
      = Spec.mix (Spec.isOne (x4 (ix1 b))) (x2 (ix4 1 c 0 0)) (x2 (ix4 0 c 0 0)) := by
  unfold val_main_v17
  rcases hl with h | h
  · rw [Spec.isOne_of_ne (by rw [h]; decide), Spec.mix_zero]
    exact gather_row x2 _ b c 0 (by rw [start_pos, h]; decide)
  · rw [Spec.isOne_of_eq h, Spec.mix_one]
    exact gather_row x2 _ b c 1 (by rw [start_pos, h]; decide)

/-- The negative: the other row. -/
theorem neg_read (x2 : FVec Ideal S2x1024x1x1 .f32) (x4 : IVec S128 32) (b : Fin 128) (c : Fin 1024)
    (hl : x4 (ix1 b) = 0#32 ∨ x4 (ix1 b) = 1#32) :
    val_main_v26 (F := Ideal) x2 x4 (ix2 b c)
      = Spec.mix (Spec.isOne (x4 (ix1 b))) (x2 (ix4 0 c 0 0)) (x2 (ix4 1 c 0 0)) := by
  unfold val_main_v26
  rcases hl with h | h
  · rw [Spec.isOne_of_ne (by rw [h]; decide), Spec.mix_zero]
    exact gather_row x2 _ b c 1 (by rw [start_neg, h]; decide)
  · rw [Spec.isOne_of_eq h, Spec.mix_one]
    exact gather_row x2 _ b c 0 (by rw [start_neg, h]; decide)

/-! ## The anchor -/

/-- The first feature map's pooled mean: the host's sum from the zero word over the 196 positions, divided by the word of 196. -/
theorem pool0_read (x0 : FVec Ideal S128x1024x14x14 .f32) (b : Fin 128) (c : Fin 1024) :
    val_main_v2 (F := Ideal) x0 (ix2 b c) = Spec.pool x0 b c := by
  rw [val_main_v2_apply, val_main_v1_apply, val_main_cst_0_apply]
  show Ideal.div (Ideal.hostReduceAdd _ x0 (Ideal.ofBits .f32 0x00000000#32) (ix2 b c)) (Ideal.ofBits .f32 0x43440000#32) = _
  rw [reduce_hw, Ideal.ofBits_zero_f32, zero_add, Spec.ofBits_196, Spec.div_196]
  rfl

/-- The second feature map's pooled mean, likewise. -/
theorem pool1_read (x1 : FVec Ideal S128x1024x14x14 .f32) (b : Fin 128) (c : Fin 1024) :
    val_main_v5 (F := Ideal) x1 (ix2 b c) = Spec.pool x1 b c := by
  rw [val_main_v5_apply, val_main_v4_apply, val_main_cst_2_apply]
  show Ideal.div (Ideal.hostReduceAdd _ x1 (Ideal.ofBits .f32 0x00000000#32) (ix2 b c)) (Ideal.ofBits .f32 0x43440000#32) = _
  rw [reduce_hw, Ideal.ofBits_zero_f32, zero_add, Spec.ofBits_196, Spec.div_196]
  rfl

/-- The anchor: the first mean where the quality word is 1, the second elsewhere. -/
theorem sel_read (x0 x1 : FVec Ideal S128x1024x14x14 .f32) (x3 : IVec S128 32) (b : Fin 128) (c : Fin 1024) :
    val_main_v9 (F := Ideal) x0 x1 x3 (ix2 b c)
      = Spec.mix (Spec.isOne (x3 (ix1 b))) (Spec.pool x0 b c) (Spec.pool x1 b c) := by
  rw [val_main_v9_apply, val_main_call0_v0_apply, idxc0, val_main_v8_apply, idx8, val_main_v7_apply,
    val_main_v6_apply, val_main_c_apply, pool0_read, pool1_read]
  by_cases hq : x3 (ix1 b) = 1#32
  · rw [Spec.isOne_of_eq hq, Spec.mix_one, IntOp.cmpi_eq.2 hq, select_one]
  · rw [Spec.isOne_of_ne hq, Spec.mix_zero, eq_zero_of_ne_one (mt IntOp.cmpi_eq.1 hq), select_zero]

/-! ## One channel's term, one sample's loss, the total -/

/-- The hinge stage at (b, c) is the specification's term. -/
theorem term_read (x0 x1 : FVec Ideal S128x1024x14x14 .f32) (x2 : FVec Ideal S2x1024x1x1 .f32) (x3 x4 : IVec S128 32)
    (b : Fin 128) (c : Fin 1024) (hl : x4 (ix1 b) = 0#32 ∨ x4 (ix1 b) = 1#32) :
    val_main_v39 (F := Ideal) x0 x1 x2 x3 x4 (ix2 b c) = Spec.term x0 x1 x2 x3 x4 b c := by
  rw [val_main_v39_apply, val_main_v37_apply, val_main_v35_apply, val_main_v30_apply, val_main_v34_apply,
    val_main_v29_apply, val_main_v33_apply, val_main_v27_apply, val_main_v31_apply,
    val_main_v28_apply, val_main_v32_apply, val_main_v36_apply, val_main_v38_apply,
    val_main_cst_8_apply, val_main_cst_9_apply, val_main_cst_10_apply, val_main_cst_11_apply,
    sel_read, pos_read x2 x4 b c hl, neg_read x2 x4 b c hl]
  have e1 : FloatOps.ofBits (F := Ideal) .f32 0x3F800000#32 = (1 : EReal) := Spec.ofBits_one
  have e0 : FloatOps.ofBits (F := Ideal) .f32 0x00000000#32 = (0 : EReal) := Ideal.ofBits_zero_f32
  rw [e1, e0]
  rfl

/-- A sum over the rank-1 index set of the 128 samples is the sum over the samples. -/
theorem sum_samples_idx (f : S128.Idx → EReal) : ∑ i, f i = ∑ b : Fin 128, f (ix1 b) := by
  let e : S128.Idx ≃ Fin 128 := ⟨fun i => i 0, ix1, fun i => (eq_ix1 i).symm, fun _ => rfl⟩
  rw [← Equiv.sum_comp e.symm f]
  rfl

/-- One sample's loss: the sum of its 1024 terms from the zero word, divided by the word of 1024. -/
theorem loss_read (x0 x1 : FVec Ideal S128x1024x14x14 .f32) (x2 : FVec Ideal S2x1024x1x1 .f32) (x3 x4 : IVec S128 32)
    (b : Fin 128) (hl : x4 (ix1 b) = 0#32 ∨ x4 (ix1 b) = 1#32) :
    val_main_v42 (F := Ideal) x0 x1 x2 x3 x4 (ix1 b)
      = (∑ c : Fin 1024, Spec.term x0 x1 x2 x3 x4 b c) * ((1 / 1024 : ℝ) : EReal) := by
  rw [val_main_v42_apply, val_main_v40_apply, val_main_v41_apply, val_main_cst_12_apply, val_main_cst_13_apply]
  have e0 : FloatOps.ofBits (F := Ideal) .f32 0x00000000#32 = (0 : EReal) := Ideal.ofBits_zero_f32
  have e2 : FloatOps.ofBits (F := Ideal) .f32 0x44800000#32 = ((1024 : ℝ) : EReal) := Spec.ofBits_1024
  rw [e0, e2, zero_add]
  show Ideal.div _ _ = _
  rw [Spec.div_1024]
  refine congrArg (· * _) (Finset.sum_congr rfl fun c _ => ?_)
  rw [idx40]
  exact term_read x0 x1 x2 x3 x4 b c hl

/-- The reference's result, as its last stage, is the specification's total when every label word is 0 or 1. -/
theorem ref_total (x0 x1 : FVec Ideal Cert.ReferenceIdeal.S128x1024x14x14 .f32)
    (x2 : FVec Ideal Cert.ReferenceIdeal.S2x1024x1x1 .f32) (x3 x4 : IVec Cert.ReferenceIdeal.S128 32)
    (hl : ∀ b : Fin 128, x4 (ix1 b) = 0#32 ∨ x4 (ix1 b) = 1#32) (i : Cert.ReferenceIdeal.S_.Idx) :
    Cert.ReferenceIdeal.Read.val_main_v43 (F := Ideal) x0 x1 x2 x3 x4 i = Spec.total x0 x1 x2 x3 x4 := by
  rw [val_main_v43_apply, val_main_cst_14_apply]
  have e0 : FloatOps.ofBits (F := Ideal) .f32 0x00000000#32 = (0 : EReal) := Ideal.ofBits_zero_f32
  rw [e0, zero_add, sum_samples_idx]
  exact Finset.sum_congr rfl fun b _ => loss_read x0 x1 x2 x3 x4 b (hl b)

end Cert.RefSide

end
-- ==== Proof.Pieces.lean ====
/-
  What the kernel body leaves behind at one grid point, as values.

  At every point the body adds, to each of the 64 rows of the running sums it carries from point to point,
  the sum of that row's hinge terms over the channel tile's 128 lanes; at a sample tile's first channel tile
  it starts from zeros instead of what the point before left; at its last channel tile it also writes the
  output block: every lane the sum over the rows of the running sums scaled by 2⁻¹⁰.
-/
import proofs.«406197_j14147622273725_3_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first row of the table's block: the lanes of table row 0. -/
abbrev row0 (x4 : Vec F S2x128 .f32) : Vec F S1x128 .f32 := View.ld x4 (Rect.unit ![0, 0] ![1, 128] inb_S2x128_S1x128_0_0)
/-- The second row of the table's block: the lanes of table row 1. -/
abbrev row1 (x4 : Vec F S2x128 .f32) : Vec F S1x128 .f32 := View.ld x4 (Rect.unit ![1, 0] ![1, 128] inb_S2x128_S1x128_1_0)

/-- One point's update of the running sums: the sums before, plus the lane sums of the hinge terms computed from the
    point's blocks (the two feature blocks, the quality and label columns, the table's two rows). -/
def upd (x0 x1 : Vec F S64x128x196 .f32) (x2 x3 : Vec F S64x1 .f32) (x4 : Vec F S2x128 .f32) (acc : Vec F S64x1 .f32) : Vec F S64x1 .f32 :=
  k0_pay1 (k0_pay4 x0 x1 x2) (k0_pay5 (row0 x4)) (k0_pay6 (row1 x4)) (k0_pay7 x3) (k0_pay8 (row1 x4) x3)
    (FloatOps.ofBits .f32 0x3F800000#32) acc

/-- The scaled row sum written to the output block from the running sums. -/
abbrev fin (acc : Vec F S64x1 .f32) : Vec F S1x1x128 .f32 := k0_pay2 acc

/-- A sample tile's first point: the running sums restart from zeros. -/
theorem sout_A (c : Dev nD) (i : grid0.Coords) (a2 : Memref sig .tc .vmem S64x128x196 .f32) (h2 : a2.IsWhole) (a3 : Memref sig .tc .vmem S64x128x196 .f32) (h3 : a3.IsWhole) (a4 : Memref sig .tc .vmem S64x1 .f32) (h4 : a4.IsWhole) (a5 : Memref sig .tc .vmem S64x1 .f32) (h5 : a5.IsWhole) (a6 : Memref sig .tc .vmem S2x128 .f32) (h6 : a6.IsWhole) (a7 : Memref sig .tc .vmem S1x1x128 .f32) (h7 : a7.IsWhole) (a8 : Memref sig .tc .vmem S64x1 .f32) (h8 : a8.IsWhole) (hc0 : cond0_0 i) (hc1 : ¬cond0_1 i) (x0 x1 : Vec F S64x128x196 .f32) (x2 x3 : Vec F S64x1 .f32) (x4 : Vec F S2x128 .f32) :
    sout0_A_0 c i a2 h2 a3 h3 a4 h4 a5 h5 a6 h6 a7 h7 a8 h8 hc0 hc1 x0 x1 x2 x3 x4 = upd x0 x1 x2 x3 x4 k0_pay3 := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S64x1) hz2, View.readCov_unit_zero (S := S64x1) _ hz2]
  simp only [View.readAt_eq_ld, h2.read_unread, h3.read_unread, h4.read_unread, h5.read_unread, h6.read_unread, h8.read_unread, View.ld_unit_zero (S := S64x128x196) hz3, View.ld_unit_zero (S := S64x1) hz2]
  rfl

/-- A middle point: the running sums continue from what the point before left. -/
theorem sout_B (c : Dev nD) (i : grid0.Coords) (a2 : Memref sig .tc .vmem S64x128x196 .f32) (h2 : a2.IsWhole) (a3 : Memref sig .tc .vmem S64x128x196 .f32) (h3 : a3.IsWhole) (a4 : Memref sig .tc .vmem S64x1 .f32) (h4 : a4.IsWhole) (a5 : Memref sig .tc .vmem S64x1 .f32) (h5 : a5.IsWhole) (a6 : Memref sig .tc .vmem S2x128 .f32) (h6 : a6.IsWhole) (a7 : Memref sig .tc .vmem S1x1x128 .f32) (h7 : a7.IsWhole) (a8 : Memref sig .tc .vmem S64x1 .f32) (h8 : a8.IsWhole) (hc0 : ¬cond0_0 i) (hc1 : ¬cond0_1 i) (x0 x1 : Vec F S64x128x196 .f32) (x2 x3 : Vec F S64x1 .f32) (x4 : Vec F S2x128 .f32) (xs0 : Vec F S64x1 .f32) :
    sout0_B_0 c i a2 h2 a3 h3 a4 h4 a5 h5 a6 h6 a7 h7 a8 h8 hc0 hc1 x0 x1 x2 x3 x4 xs0 = upd x0 x1 x2 x3 x4 xs0 := by
  unfold sout0_B_0
  rw [View.read_writes_eq_canon _ _ _ (scover0_B_0 c i a2 h2 a3 h3 a4 h4 a5 h5 a6 h6 a7 h7 a8 h8 hc0 hc1 x0 x1 x2 x3 x4 xs0)]
  unfold kernelRun0_B
  dsimp only
  sl_unfold_words
  rw [View.canon_unit_zero hz2]
  simp only [View.readAt_eq_ld, h2.read_unread, h3.read_unread, h4.read_unread, h5.read_unread, h6.read_unread, h8.read_unread, View.ld_unit_zero (S := S64x128x196) hz3, View.ld_unit_zero (S := S64x1) hz2]
  rfl

/-- A sample tile's last point: the running sums continue likewise … -/
theorem sout_C (c : Dev nD) (i : grid0.Coords) (a2 : Memref sig .tc .vmem S64x128x196 .f32) (h2 : a2.IsWhole) (a3 : Memref sig .tc .vmem S64x128x196 .f32) (h3 : a3.IsWhole) (a4 : Memref sig .tc .vmem S64x1 .f32) (h4 : a4.IsWhole) (a5 : Memref sig .tc .vmem S64x1 .f32) (h5 : a5.IsWhole) (a6 : Memref sig .tc .vmem S2x128 .f32) (h6 : a6.IsWhole) (a7 : Memref sig .tc .vmem S1x1x128 .f32) (h7 : a7.IsWhole) (a8 : Memref sig .tc .vmem S64x1 .f32) (h8 : a8.IsWhole) (hc0 : ¬cond0_0 i) (hc1 : cond0_1 i) (x0 x1 : Vec F S64x128x196 .f32) (x2 x3 : Vec F S64x1 .f32) (x4 : Vec F S2x128 .f32) (xs0 : Vec F S64x1 .f32) :
    sout0_C_0 c i a2 h2 a3 h3 a4 h4 a5 h5 a6 h6 a7 h7 a8 h8 hc0 hc1 x0 x1 x2 x3 x4 xs0 = upd x0 x1 x2 x3 x4 xs0 := by
  unfold sout0_C_0
  rw [View.read_writes_eq_canon _ _ _ (scover0_C_0 c i a2 h2 a3 h3 a4 h4 a5 h5 a6 h6 a7 h7 a8 h8 hc0 hc1 x0 x1 x2 x3 x4 xs0)]
  unfold kernelRun0_C
  dsimp only
  sl_unfold_words
  rw [View.canon_unit_zero hz2]
  simp only [View.readAt_eq_ld, h2.read_unread, h3.read_unread, h4.read_unread, h5.read_unread, h6.read_unread, h8.read_unread, View.ld_unit_zero (S := S64x128x196) hz3, View.ld_unit_zero (S := S64x1) hz2]
  rfl

/-- … and the output block is written from them. -/
theorem out_C (c : Dev nD) (i : grid0.Coords) (a2 : Memref sig .tc .vmem S64x128x196 .f32) (h2 : a2.IsWhole) (a3 : Memref sig .tc .vmem S64x128x196 .f32) (h3 : a3.IsWhole) (a4 : Memref sig .tc .vmem S64x1 .f32) (h4 : a4.IsWhole) (a5 : Memref sig .tc .vmem S64x1 .f32) (h5 : a5.IsWhole) (a6 : Memref sig .tc .vmem S2x128 .f32) (h6 : a6.IsWhole) (a7 : Memref sig .tc .vmem S1x1x128 .f32) (h7 : a7.IsWhole) (a8 : Memref sig .tc .vmem S64x1 .f32) (h8 : a8.IsWhole) (hc0 : ¬cond0_0 i) (hc1 : cond0_1 i) (x0 x1 : Vec F S64x128x196 .f32) (x2 x3 : Vec F S64x1 .f32) (x4 : Vec F S2x128 .f32) (xs0 : Vec F S64x1 .f32) :
    out0_C_5 c i a2 h2 a3 h3 a4 h4 a5 h5 a6 h6 a7 h7 a8 h8 hc0 hc1 x0 x1 x2 x3 x4 xs0 = fin (upd x0 x1 x2 x3 x4 xs0) := by
  unfold out0_C_5
  rw [View.read_writes_eq_canon _ _ _ (cover0_C_5 c i a2 h2 a3 h3 a4 h4 a5 h5 a6 h6 a7 h7 a8 h8 hc0 hc1 x0 x1 x2 x3 x4 xs0)]
  unfold kernelRun0_C
  dsimp only
  sl_unfold_words
  rw [View.canon_unit_zero hz3, View.readCov_unit_zero (S := S64x1) _ hz2]
  simp only [View.readAt_eq_ld, h2.read_unread, h3.read_unread, h4.read_unread, h5.read_unread, h6.read_unread, h8.read_unread, View.ld_unit_zero (S := S64x128x196) hz3, View.ld_unit_zero (S := S64x1) hz2]
  rfl

end Cert.KernelIdeal.Pieces

end
-- ==== Proof.HostReads.lean ====
/-
  What the kernel's windows read: the arrays the region finds, as reads of the arguments, and each window's
  block at a grid point as a read of its array.

  Grid point t is sample tile t / 8, channel tile t % 8. The two feature maps reach the region flattened to
  [128, 1024, 196] (position k is row k / 14, column k % 14); the quality and label words reach it as [128, 1]
  columns of 0/1 floats (1 exactly where the word is 1); the table reaches it as [2, 1024].
-/
import proofs.«406197_j14147622273725_3_alg».proof.Proof.Gen.KernelIdeal.Frame.Runs
import proofs.«406197_j14147622273725_3_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostReads

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-! ## The arrays the region finds, as terms of the arguments -/

/-- The first feature map as the region finds it is the argument reshaped. -/
theorem V_v8_term (c : Dev nD) :
    (V m c main_v8 : FVec Ideal S128x1024x196 .f32)
      = shapeCast S128x1024x196 (m ((c : Thread nD τ).loc main_arg0)) shapeCasts_S128x1024x14x14_S128x1024x196 := by
  show StableHlo.after hostOps0 (fun b => m (c, b)) (Proc.devRef .tc main_v8) = _
  after_results
  rfl

/-- The second feature map likewise. -/
theorem V_v9_term (c : Dev nD) :
    (V m c main_v9 : FVec Ideal S128x1024x196 .f32)
      = shapeCast S128x1024x196 (m ((c : Thread nD τ).loc main_arg1)) shapeCasts_S128x1024x14x14_S128x1024x196 := by
  show StableHlo.after hostOps0 (fun b => m (c, b)) (Proc.devRef .tc main_v9) = _
  after_results
  rfl

/-- The quality column is the reshaped 0/1 float of "the quality word equals the word 1". -/
theorem V_v3_term (c : Dev nD) :
    (V m c main_v3 : FVec Ideal S128x1 .f32)
      = shapeCast S128x1 (uitofp (F := Ideal) .f32 (cmpi .eq (m ((c : Thread nD τ).loc main_arg3) : IVec S128 32)
          (broadcastInDim S128 ![] bcast_S_S128 (constantI S_ 32 1#32)))) shapeCasts_S128_S128x1 := by
  show StableHlo.after hostOps0 (fun b => m (c, b)) (Proc.devRef .tc main_v3) = _
  after_results
  rfl

/-- The label column is the reshaped 0/1 float of "the label word equals the word 1". -/
theorem V_v7_term (c : Dev nD) :
    (V m c main_v7 : FVec Ideal S128x1 .f32)
      = shapeCast S128x1 (uitofp (F := Ideal) .f32 (cmpi .eq (m ((c : Thread nD τ).loc main_arg4) : IVec S128 32)
          (broadcastInDim S128 ![] bcast_S_S128 (constantI S_ 32 1#32)))) shapeCasts_S128_S128x1 := by
  show StableHlo.after hostOps0 (fun b => m (c, b)) (Proc.devRef .tc main_v7) = _
  after_results
  rfl

/-- The table as the region finds it is the argument reshaped. -/
theorem V_v10_term (c : Dev nD) :
    (V m c main_v10 : FVec Ideal S2x1024 .f32)
      = shapeCast S2x1024 (m ((c : Thread nD τ).loc main_arg2)) shapeCasts_S2x1024x1x1_S2x1024 := by
  show StableHlo.after hostOps0 (fun b => m (c, b)) (Proc.devRef .tc main_v10) = _
  after_results
  rfl

/-! ## Row-major positions and the mask word -/

/-- Flattening the last two axes keeps the row-major position: (b, ch, k / 14, k % 14) sits where (b, ch, k) does,
    since 14 · (k / 14) + k % 14 = k. -/
theorem flat_pos (b : Fin 128) (ch : Fin 1024) (k : Fin 196) :
    (S128x1024x14x14.rowMajor (ix4 b ch ⟨k.val / 14, by have := k.isLt; omega⟩ ⟨k.val % 14, Nat.mod_lt _ (by decide)⟩)).val
      = (S128x1024x196.rowMajor (ix3 b ch k)).val := by
  rw [Shape.rowMajor_val_four, Shape.rowMajor_val_three]
  show ((b.val * 1024 + ch.val) * 14 + k.val / 14) * 14 + k.val % 14 = (b.val * 1024 + ch.val) * 196 + k.val
  omega

/-- Adding a trailing unit axis keeps the position: b sits where (b, 0) does. -/
theorem col_pos (b : Fin 128) : (S128.rowMajor (ix1 b)).val = (S128x1.rowMajor (ix2 b 0)).val := by
  rw [Shape.rowMajor_val_one, Shape.rowMajor_val_two]
  show b.val = b.val * 1 + 0
  omega

/-- Dropping two trailing unit axes keeps the position: (a, ch, 0, 0) sits where (a, ch) does. -/
theorem tab_pos (a : Fin 2) (ch : Fin 1024) :
    (S2x1024x1x1.rowMajor (ix4 a ch 0 0)).val = (S2x1024.rowMajor (ix2 a ch)).val := by
  rw [Shape.rowMajor_val_four, Shape.rowMajor_val_two]
  show ((a.val * 1024 + ch.val) * 1 + 0) * 1 + 0 = a.val * 1024 + ch.val
  omega

/-- The one-bit "equals the word 1" read as an unsigned float is 1 where the word is 1 and 0 elsewhere. -/
theorem mask_isOne (w : BitVec 32) :
    (FloatOps.uitofp (F := Ideal) .f32 (IntOp.cmpi .eq w 1#32) : Ideal .f32) = Spec.isOne w := by
  by_cases h : w = 1#32
  · have h1 : IntOp.cmpi .eq w 1#32 = 1#1 := by subst h; rfl
    rw [Spec.isOne_of_eq h, h1]
    show (((1#1 : BitVec 1).toNat : ℝ) : EReal) = 1
    simp
  · have h0 : IntOp.cmpi .eq w 1#32 = 0#1 := by
      have hb : (w == 1#32) = false := beq_eq_false_iff_ne.mpr h
      show BitVec.ofBool (w == 1#32) = 0#1
      rw [hb]; rfl
    rw [Spec.isOne_of_ne h, h0]
    show (((0#1 : BitVec 1).toNat : ℝ) : EReal) = 0
    simp

/-! ## The arrays read at an index -/

/-- The first feature map as the region finds it: the argument flattened over its last two axes. -/
theorem V_v8 (c : Dev nD) (b : Fin 128) (ch : Fin 1024) (k : Fin 196) :
    (V m c main_v8 : FVec Ideal S128x1024x196 .f32) (ix3 b ch k)
      = (m ((c : Thread nD τ).loc main_arg0) : FVec Ideal S128x1024x14x14 .f32)
          (ix4 b ch ⟨k.val / 14, by have := k.isLt; omega⟩ ⟨k.val % 14, Nat.mod_lt _ (by decide)⟩) := by
  rw [V_v8_term]
  exact shapeCast_apply (s := S128x1024x14x14) (t := S128x1024x196) _ _ _ _ (flat_pos b ch k)

/-- The second feature map likewise. -/
theorem V_v9 (c : Dev nD) (b : Fin 128) (ch : Fin 1024) (k : Fin 196) :
    (V m c main_v9 : FVec Ideal S128x1024x196 .f32) (ix3 b ch k)
      = (m ((c : Thread nD τ).loc main_arg1) : FVec Ideal S128x1024x14x14 .f32)
          (ix4 b ch ⟨k.val / 14, by have := k.isLt; omega⟩ ⟨k.val % 14, Nat.mod_lt _ (by decide)⟩) := by
  rw [V_v9_term]
  exact shapeCast_apply (s := S128x1024x14x14) (t := S128x1024x196) _ _ _ _ (flat_pos b ch k)

/-- The quality column: 1 where the sample's quality word is 1, else 0. -/
theorem V_v3 (c : Dev nD) (b : Fin 128) :
    (V m c main_v3 : FVec Ideal S128x1 .f32) (ix2 b 0)
      = Spec.isOne ((m ((c : Thread nD τ).loc main_arg3) : IVec S128 32) (ix1 b)) := by
  rw [V_v3_term]
  exact (shapeCast_apply (s := S128) (t := S128x1) _ _ _ (ix1 b) (col_pos b)).trans (mask_isOne _)

/-- The label column: 1 where the sample's label word is 1, else 0. -/
theorem V_v7 (c : Dev nD) (b : Fin 128) :
    (V m c main_v7 : FVec Ideal S128x1 .f32) (ix2 b 0)
      = Spec.isOne ((m ((c : Thread nD τ).loc main_arg4) : IVec S128 32) (ix1 b)) := by
  rw [V_v7_term]
  exact (shapeCast_apply (s := S128) (t := S128x1) _ _ _ (ix1 b) (col_pos b)).trans (mask_isOne _)

/-- The table as the region finds it: the argument with its two unit axes dropped. -/
theorem V_v10 (c : Dev nD) (a : Fin 2) (ch : Fin 1024) :
    (V m c main_v10 : FVec Ideal S2x1024 .f32) (ix2 a ch)
      = (m ((c : Thread nD τ).loc main_arg2) : FVec Ideal S2x1024x1x1 .f32) (ix4 a ch 0 0) := by
  rw [V_v10_term]
  exact shapeCast_apply (s := S2x1024x1x1) (t := S2x1024) _ _ _ _ (tab_pos a ch)

/-! ## The windows' blocks -/

/-- The feature-map windows' block index at grid point t: (t / 8, t % 8, 0). -/
theorem idx0 : ∀ t : Fin cfg0.N, win0_0.index t 0 = t.val / 8 ∧ win0_0.index t 1 = t.val % 8 ∧ win0_0.index t 2 = 0 :=
  (by decide +kernel : ∀ t : Fin grid0.N, _)
theorem idx1 : ∀ t : Fin cfg0.N, win0_1.index t 0 = t.val / 8 ∧ win0_1.index t 1 = t.val % 8 ∧ win0_1.index t 2 = 0 :=
  (by decide +kernel : ∀ t : Fin grid0.N, _)
/-- The two column windows' block index: (t / 8, 0). -/
theorem idx2 : ∀ t : Fin cfg0.N, win0_2.index t 0 = t.val / 8 ∧ win0_2.index t 1 = 0 :=
  (by decide +kernel : ∀ t : Fin grid0.N, _)
theorem idx3 : ∀ t : Fin cfg0.N, win0_3.index t 0 = t.val / 8 ∧ win0_3.index t 1 = 0 :=
  (by decide +kernel : ∀ t : Fin grid0.N, _)
/-- The table window's block index: (0, t % 8). -/
theorem idx4 : ∀ t : Fin cfg0.N, win0_4.index t 0 = 0 ∧ win0_4.index t 1 = t.val % 8 :=
  (by decide +kernel : ∀ t : Fin grid0.N, _)

/-- Window 0's block at point t: rows 64·(t/8) …, channels 128·(t%8) …, every position. -/
theorem iblk0 (c : Dev nD) (t : Fin cfg0.N) (r : Fin 64) (l : Fin 128) (k : Fin 196) :
    (iblk m c 0 t : Vec Ideal S64x128x196 .f32) (ix3 r l k)
      = (V m c main_v8 : FVec Ideal S128x1024x196 .f32)
          (ix3 ⟨64 * (t.val / 8) + r.val, by have := t.isLt; have : cfg0.N = 16 := N_0; have := r.isLt; omega⟩
            ⟨128 * (t.val % 8) + l.val, by have := l.isLt; omega⟩ k) := by
  obtain ⟨h0, h1, h2⟩ := idx0 t
  unfold iblk
  rw [View.read_apply]
  show V m c main_v8 _ = V m c main_v8 _
  congr 1
  funext a
  apply Fin.ext
  match a with
  | ⟨0, _⟩ => show win0_0.index t 0 * 64 + 1 * r.val = _; rw [h0]; show _ = 64 * (t.val / 8) + r.val; omega
  | ⟨1, _⟩ => show win0_0.index t 1 * 128 + 1 * l.val = _; rw [h1]; show _ = 128 * (t.val % 8) + l.val; omega
  | ⟨2, _⟩ => show win0_0.index t 2 * 196 + 1 * k.val = _; rw [h2]; show _ = k.val; omega

/-- Window 1's block likewise, of the second feature map. -/
theorem iblk1 (c : Dev nD) (t : Fin cfg0.N) (r : Fin 64) (l : Fin 128) (k : Fin 196) :
    (iblk m c 1 t : Vec Ideal S64x128x196 .f32) (ix3 r l k)
      = (V m c main_v9 : FVec Ideal S128x1024x196 .f32)
          (ix3 ⟨64 * (t.val / 8) + r.val, by have := t.isLt; have : cfg0.N = 16 := N_0; have := r.isLt; omega⟩
            ⟨128 * (t.val % 8) + l.val, by have := l.isLt; omega⟩ k) := by
  obtain ⟨h0, h1, h2⟩ := idx1 t
  unfold iblk
  rw [View.read_apply]
  show V m c main_v9 _ = V m c main_v9 _
  congr 1
  funext a
  apply Fin.ext
  match a with
  | ⟨0, _⟩ => show win0_1.index t 0 * 64 + 1 * r.val = _; rw [h0]; show _ = 64 * (t.val / 8) + r.val; omega
  | ⟨1, _⟩ => show win0_1.index t 1 * 128 + 1 * l.val = _; rw [h1]; show _ = 128 * (t.val % 8) + l.val; omega
  | ⟨2, _⟩ => show win0_1.index t 2 * 196 + 1 * k.val = _; rw [h2]; show _ = k.val; omega

/-- Window 2's block: the sample tile's 64 rows of the quality column. -/
theorem iblk2 (c : Dev nD) (t : Fin cfg0.N) (r : Fin 64) :
    (iblk m c 2 t : Vec Ideal S64x1 .f32) (ix2 r 0)
      = (V m c main_v3 : FVec Ideal S128x1 .f32)
          (ix2 ⟨64 * (t.val / 8) + r.val, by have := t.isLt; have : cfg0.N = 16 := N_0; have := r.isLt; omega⟩ 0) := by
  obtain ⟨h0, h1⟩ := idx2 t
  unfold iblk
  rw [View.read_apply]
  show V m c main_v3 _ = V m c main_v3 _
  congr 1
  funext a
  apply Fin.ext
  match a with
  | ⟨0, _⟩ => show win0_2.index t 0 * 64 + 1 * r.val = _; rw [h0]; show _ = 64 * (t.val / 8) + r.val; omega
  | ⟨1, _⟩ => show win0_2.index t 1 * 1 + 1 * 0 = _; rw [h1]; show _ = 0; omega

/-- Window 3's block: the sample tile's 64 rows of the label column. -/
theorem iblk3 (c : Dev nD) (t : Fin cfg0.N) (r : Fin 64) :
    (iblk m c 3 t : Vec Ideal S64x1 .f32) (ix2 r 0)
      = (V m c main_v7 : FVec Ideal S128x1 .f32)
          (ix2 ⟨64 * (t.val / 8) + r.val, by have := t.isLt; have : cfg0.N = 16 := N_0; have := r.isLt; omega⟩ 0) := by
  obtain ⟨h0, h1⟩ := idx3 t
  unfold iblk
  rw [View.read_apply]
  show V m c main_v7 _ = V m c main_v7 _
  congr 1
  funext a
  apply Fin.ext
  match a with
  | ⟨0, _⟩ => show win0_3.index t 0 * 64 + 1 * r.val = _; rw [h0]; show _ = 64 * (t.val / 8) + r.val; omega
  | ⟨1, _⟩ => show win0_3.index t 1 * 1 + 1 * 0 = _; rw [h1]; show _ = 0; omega

/-- Window 4's block: both table rows at the channel tile's 128 lanes. -/
theorem iblk4 (c : Dev nD) (t : Fin cfg0.N) (a : Fin 2) (l : Fin 128) :
    (iblk m c 4 t : Vec Ideal S2x128 .f32) (ix2 a l)
      = (V m c main_v10 : FVec Ideal S2x1024 .f32) (ix2 a ⟨128 * (t.val % 8) + l.val, by have := l.isLt; omega⟩) := by
  obtain ⟨h0, h1⟩ := idx4 t
  unfold iblk
  rw [View.read_apply]
  show V m c main_v10 _ = V m c main_v10 _
  congr 1
  funext d
  apply Fin.ext
  match d with
  | ⟨0, _⟩ => show win0_4.index t 0 * 2 + 1 * a.val = _; rw [h0]; show _ = a.val; omega
  | ⟨1, _⟩ => show win0_4.index t 1 * 128 + 1 * l.val = _; rw [h1]; show _ = 128 * (t.val % 8) + l.val; omega

end Cert.KernelIdeal.HostReads

end
-- ==== Proof.PayloadAt.lean ====
/-
  What one grid point's arithmetic computes, read at an index on the extended reals.

  Every operation of the body but three is pointwise, so an index passes through it unchanged; the three sums
  (over the 196 positions, over the 128 lanes, over the 64 rows) are read as finite sums over the summed
  coordinate, and the column and row broadcasts and the column view read one fixed entry of their operand.
-/
import proofs.«406197_j14147622273725_3_alg».proof.Proof.Gen.KernelIdeal.Skeleton
import proofs.«406197_j14147622273725_3_alg».proof.Proof.Spec
import proofs.«406197_j14147622273725_3_alg».proof.Proof.SumLaws
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.PayAt

open Cert.KernelIdeal Cert.KernelIdeal.Gen Idealize.ShloMosaic Idealize.ShloMosaic.ValueIdx

/-- The kernel's named reciprocal denotes the rational 1/196. -/
theorem inv196 : Named.named (F := Ideal) κ "inv_196" (φ := .f32) 0x3BA72F05#32 = ((1 / 196 : ℝ) : EReal) :=
  IdealRules.named_const.ideal_named_scalar _ _ _ _ rfl

/-- The sum over the 128 lanes, read at row r. -/
theorem laneSum_apply (v : FVec Ideal S64x128 .f32) (r : Fin 64) :
    multiReduction (F := Ideal) .add [1] S64 v 0x00000000#32 reduces_S64x128_S64 (.inl rfl) rfl (ix1 r)
      = ∑ l : Fin 128, v (ix2 r l) := by
  refine (Ideal.multiReduction_add_single v _ reduces_S64x128_S64 (.inl rfl) rfl (ix1 r)).trans ?_
  exact Finset.sum_congr rfl fun l _ => congrArg v (funext fun a => Fin.ext (match a with | ⟨0, _⟩ => rfl | ⟨1, _⟩ => rfl))

/-- The sum over the 196 positions, read at row r, lane l. -/
theorem posSum_apply (v : FVec Ideal S64x128x196 .f32) (r : Fin 64) (l : Fin 128) :
    multiReduction (F := Ideal) .add [2] S64x128 v 0x00000000#32 reduces_S64x128x196_S64x128 (.inl rfl) rfl (ix2 r l)
      = ∑ k : Fin 196, v (ix3 r l k) := by
  refine (Ideal.multiReduction_add_single v _ reduces_S64x128x196_S64x128 (.inl rfl) rfl (ix2 r l)).trans ?_
  exact Finset.sum_congr rfl fun k _ => congrArg v (funext fun a => Fin.ext (match a with | ⟨0, _⟩ => rfl | ⟨1, _⟩ => rfl | ⟨2, _⟩ => rfl))

/-- The sum over the 64 rows of a column. -/
theorem rowSum_apply (v : FVec Ideal S64x1 .f32) (j : S1.Idx) :
    multiReduction (F := Ideal) .add [0] S1 v 0x00000000#32 reduces_S64x1_S1 (.inl rfl) rfl j
      = ∑ r : Fin 64, v (ix2 r 0) := by
  refine (Ideal.multiReduction_add_single v _ reduces_S64x1_S1 (.inl rfl) rfl j).trans ?_
  exact Finset.sum_congr rfl fun r _ => congrArg v (funext fun a => Fin.ext (match a with
    | ⟨0, _⟩ => rfl
    | ⟨1, _⟩ => by
      show (j 0).val = 0
      have h : (j 0).val < 1 := (j 0).isLt
      omega))

/-- A vector of 64 viewed as a column reads its r-th entry at (r, 0). -/
theorem col_apply (v : FVec Ideal S64 .f32) (r : Fin 64) :
    shapeCast S64x1 v shapeCasts_S64_S64x1 (ix2 r 0) = v (ix1 r) :=
  shapeCast_apply v shapeCasts_S64_S64x1 _ _ (by
    rw [Shape.rowMajor_val_one, Shape.rowMajor_val_two]
    show r.val = r.val * 1 + 0
    omega)

/-- A column spread over the 128 lanes reads, at (r, l), the column at (r, 0). -/
theorem colBcast_apply (v : FVec Ideal S64x1 .f32) (r : Fin 64) (l : Fin 128) :
    broadcastTo S64x128 v broadcasts_S64x1_S64x128 (ix2 r l) = v (ix2 r 0) :=
  broadcastTo_apply v broadcasts_S64x1_S64x128 (ix2 r l) (ix2 r 0) fun a => match a with
    | ⟨0, _⟩ => rfl
    | ⟨1, _⟩ => rfl

/-- A row spread over the 64 rows reads, at (r, l), the row at (0, l). -/
theorem rowBcast_apply (v : FVec Ideal S1x128 .f32) (r : Fin 64) (l : Fin 128) :
    broadcastTo S64x128 v broadcasts_S1x128_S64x128 (ix2 r l) = v (ix2 0 l) :=
  broadcastTo_1b_ab_apply v broadcasts_S1x128_S64x128 r l

/-- The anchor at (r, l): the two pooled blocks mixed by the quality column. -/
theorem pay4_apply (x0 x1 : Vec Ideal S64x128x196 .f32) (x2 : Vec Ideal S64x1 .f32) (r : Fin 64) (l : Fin 128) :
    k0_pay4 (F := Ideal) x0 x1 x2 (ix2 r l)
      = Spec.mix (x2 (ix2 r 0)) ((∑ k : Fin 196, x0 (ix3 r l k)) * ((1 / 196 : ℝ) : EReal))
          ((∑ k : Fin 196, x1 (ix3 r l k)) * ((1 / 196 : ℝ) : EReal)) := by
  have hs : ∀ b : BitVec 32, Scalar.ofBits (F := Ideal) .f32 b = Ideal.ofBits .f32 b := fun _ => rfl
  unfold k0_pay4 Spec.mix
  simp only [shapeCast_self, addf_apply, mulf_apply, subf_apply, broadcast_apply, colBcast_apply,
    inv196, hs, Spec.ofBits_one]
  rw [posSum_apply x0 r l, posSum_apply x1 r l]

/-- The first table row at (r, l): the row's lane l, whatever r. -/
theorem pay5_apply (v22 : Vec Ideal S1x128 .f32) (r : Fin 64) (l : Fin 128) :
    k0_pay5 (F := Ideal) v22 (ix2 r l) = v22 (ix2 0 l) := by
  unfold k0_pay5
  simp only [shapeCast_self, rowBcast_apply]

/-- The second table row at (r, l): the row's lane l, whatever r. -/
theorem pay6_apply (v26 : Vec Ideal S1x128 .f32) (r : Fin 64) (l : Fin 128) :
    k0_pay6 (F := Ideal) v26 (ix2 r l) = v26 (ix2 0 l) := by
  unfold k0_pay6
  simp only [shapeCast_self, rowBcast_apply]

/-- The label column at (r, l): the column's row r, whatever l. -/
theorem pay7_apply (x3 : Vec Ideal S64x1 .f32) (r : Fin 64) (l : Fin 128) :
    k0_pay7 (F := Ideal) x3 (ix2 r l) = x3 (ix2 r 0) := by
  unfold k0_pay7
  simp only [shapeCast_self, colBcast_apply]

/-- The label column times the second table row at (r, l). -/
theorem pay8_apply (v26 : Vec Ideal S1x128 .f32) (x3 : Vec Ideal S64x1 .f32) (r : Fin 64) (l : Fin 128) :
    k0_pay8 (F := Ideal) v26 x3 (ix2 r l) = x3 (ix2 r 0) * v26 (ix2 0 l) := by
  unfold k0_pay8
  simp only [mulf_apply, pay7_apply, pay6_apply]

/-- The absolute value on the extended reals is pointwise max a (-a). -/
theorem absf_apply (a : FVec Ideal S64x128 .f32) (i : S64x128.Idx) : absf a i = max (a i) (-(a i)) := rfl

/-- Row r of the running sums after a point: what it held before plus the sum over the tile's 128 lanes of the hinge
    terms, each from the two pooled blocks (sums over the 196 positions times 1/196) mixed by the quality column,
    and the two table rows mixed by the label column, one way for the positive and the other for the negative. -/
theorem upd_apply (x0 x1 : Vec Ideal S64x128x196 .f32) (x2 x3 : Vec Ideal S64x1 .f32) (v22 v26 : Vec Ideal S1x128 .f32)
    (acc : Vec Ideal S64x1 .f32) (r : Fin 64) :
    k0_pay1 (F := Ideal) (k0_pay4 x0 x1 x2) (k0_pay5 v22) (k0_pay6 v26) (k0_pay7 x3) (k0_pay8 v26 x3)
        (Scalar.ofBits .f32 0x3F800000#32) acc (ix2 r 0)
      = acc (ix2 r 0) + ∑ l : Fin 128, Spec.hinge
          (Spec.mix (x2 (ix2 r 0)) ((∑ k : Fin 196, x0 (ix3 r l k)) * ((1 / 196 : ℝ) : EReal))
            ((∑ k : Fin 196, x1 (ix3 r l k)) * ((1 / 196 : ℝ) : EReal)))
          (Spec.mix (x3 (ix2 r 0)) (v26 (ix2 0 l)) (v22 (ix2 0 l)))
          (Spec.mix (x3 (ix2 r 0)) (v22 (ix2 0 l)) (v26 (ix2 0 l))) := by
  have hs : ∀ b : BitVec 32, Scalar.ofBits (F := Ideal) .f32 b = Ideal.ofBits .f32 b := fun _ => rfl
  unfold k0_pay1
  simp only [shapeCast_self, addf_apply]
  refine congrArg (acc (ix2 r 0) + ·) ?_
  refine (col_apply _ r).trans ?_
  refine (laneSum_apply _ r).trans ?_
  refine Finset.sum_congr rfl fun l _ => ?_
  simp only [maximumf_apply, addf_apply, subf_apply, mulf_apply, absf_apply, broadcast_apply, pay4_apply, pay5_apply,
    pay6_apply, pay7_apply, pay8_apply, hs, Spec.ofBits_one, Ideal.ofBits_zero_f32]
  rfl

/-- Every lane of the block written at a tile's last point: the sum over the 64 rows of the running sums times 2⁻¹⁰. -/
theorem fin_apply (v67 : Vec Ideal S64x1 .f32) (y : S1x1x128.Idx) :
    k0_pay2 (F := Ideal) v67 y = ∑ r : Fin 64, v67 (ix2 r 0) * ((1 / 1024 : ℝ) : EReal) := by
  have hs : ∀ b : BitVec 32, Scalar.ofBits (F := Ideal) .f32 b = Ideal.ofBits .f32 b := fun _ => rfl
  unfold k0_pay2 broadcastTo shapeCast
  refine (rowSum_apply _ _).trans ?_
  simp only [mulf_apply, broadcast_apply, hs, Spec.ofBits_inv1024]

/-- The reset stores zeros. -/
theorem zero_apply (y : S64x1.Idx) : k0_pay3 (F := Ideal) y = (0 : EReal) := by
  unfold k0_pay3
  simp only [shapeCast_self, broadcast_apply]
  exact Ideal.ofBits_zero_f32

end Cert.KernelIdeal.PayAt

end
-- ==== Proof.Terms.lean ====
/-
  One grid point's contribution, in the specification's terms.

  At grid point t — sample tile t / 8, channel tile t % 8 — the body adds to row r of the running sums the sum over
  the tile's 128 lanes l of the hinge term of sample 64·(t/8) + r and channel 128·(t%8) + l: the blocks it reads are
  those rows and lanes of the arrays the region finds, and those arrays are the arguments re-laid (the feature maps
  flattened over their positions, the quality and label words as 0/1 columns, the table without its unit axes).
-/
import proofs.«406197_j14147622273725_3_alg».proof.Proof.Pieces
import proofs.«406197_j14147622273725_3_alg».proof.Proof.HostReads
import proofs.«406197_j14147622273725_3_alg».proof.Proof.PayloadAt
import proofs.«406197_j14147622273725_3_alg».proof.Proof.SumLaws

set_option maxRecDepth 16384

noncomputable section

open scoped BigOperators

namespace Cert.KernelIdeal.Terms

open Cert.KernelIdeal Cert.KernelIdeal.Gen Cert.KernelIdeal.Pieces Idealize.ShloMosaic Idealize.ShloMosaic.TcCoe
  Idealize.ShloMosaic.ValueIdx Idealize.SL.Sem

variable (m : (ℓ : Loc nD τ sig) → Buf (Elt Ideal) ℓ)

/-- The five argument arrays on core c. -/
abbrev X (c : Dev nD) : FVec Ideal S128x1024x14x14 .f32 := m ((c : Thread nD τ).loc main_arg0)
abbrev Xp (c : Dev nD) : FVec Ideal S128x1024x14x14 .f32 := m ((c : Thread nD τ).loc main_arg1)
abbrev A (c : Dev nD) : FVec Ideal S2x1024x1x1 .f32 := m ((c : Thread nD τ).loc main_arg2)
abbrev Q (c : Dev nD) : IVec S128 32 := m ((c : Thread nD τ).loc main_arg3)
abbrev L (c : Dev nD) : IVec S128 32 := m ((c : Thread nD τ).loc main_arg4)

/-- The hinge term of sample b, channel ch, of the arguments on core c. -/
abbrev term (c : Dev nD) (b : Fin 128) (ch : Fin 1024) : EReal :=
  Spec.term (X m c) (Xp m c) (A m c) (Q m c) (L m c) b ch

/-- The sum of sample b's hinge terms over channel tile j, with sample and tile given as natural numbers
    (zero outside the ranges, which never occurs). -/
def tileN (c : Dev nD) (b j : ℕ) : EReal :=
  if h : b < 128 ∧ j < 8 then ∑ l : Fin 128, term m c ⟨b, h.1⟩ ⟨128 * j + l.val, by have := l.isLt; omega⟩ else 0

/-- The two feature blocks of point t, at their literal type. -/
abbrev blk0 (c : Dev nD) (t : Fin cfg0.N) : Vec Ideal S64x128x196 .f32 := iblk m c 0 t
abbrev blk1 (c : Dev nD) (t : Fin cfg0.N) : Vec Ideal S64x128x196 .f32 := iblk m c 1 t

/-- A table row's lane, read off the table's block. -/
theorem row0_apply (x4 : Vec Ideal S2x128 .f32) (l : Fin 128) : row0 x4 (ix2 0 l) = x4 (ix2 0 l) := by
  show x4 _ = x4 _
  congr 1
  funext a
  apply Fin.ext
  match a with
  | ⟨0, _⟩ => rfl
  | ⟨1, _⟩ => show 0 + 1 * l.val = l.val; omega

theorem row1_apply (x4 : Vec Ideal S2x128 .f32) (l : Fin 128) : row1 x4 (ix2 0 l) = x4 (ix2 1 l) := by
  show x4 _ = x4 _
  congr 1
  funext a
  apply Fin.ext
  match a with
  | ⟨0, _⟩ => rfl
  | ⟨1, _⟩ => show 0 + 1 * l.val = l.val; omega

/-- The pooled sum a point reads for row r, lane l: the feature map's 196 flattened positions are its 14 × 14. -/
theorem pos_sum (c : Dev nD) (t : Fin cfg0.N) (r : Fin 64) (l : Fin 128) (hb : 64 * (t.val / 8) + r.val < 128)
    (hc : 128 * (t.val % 8) + l.val < 1024) :
    ∑ k : Fin 196, blk0 m c t (ix3 r l k)
      = ∑ h : Fin 14, ∑ w : Fin 14, X m c (ix4 ⟨64 * (t.val / 8) + r.val, hb⟩ ⟨128 * (t.val % 8) + l.val, hc⟩ h w) := by
  rw [← Spec.sum_positions fun h w => X m c (ix4 ⟨64 * (t.val / 8) + r.val, hb⟩ ⟨128 * (t.val % 8) + l.val, hc⟩ h w)]
  refine Finset.sum_congr rfl fun k _ => ?_
  exact (HostReads.iblk0 m c t r l k).trans (HostReads.V_v8 m c _ _ k)

theorem pos_sum' (c : Dev nD) (t : Fin cfg0.N) (r : Fin 64) (l : Fin 128) (hb : 64 * (t.val / 8) + r.val < 128)
    (hc : 128 * (t.val % 8) + l.val < 1024) :
    ∑ k : Fin 196, blk1 m c t (ix3 r l k)
      = ∑ h : Fin 14, ∑ w : Fin 14, Xp m c (ix4 ⟨64 * (t.val / 8) + r.val, hb⟩ ⟨128 * (t.val % 8) + l.val, hc⟩ h w) := by
  rw [← Spec.sum_positions fun h w => Xp m c (ix4 ⟨64 * (t.val / 8) + r.val, hb⟩ ⟨128 * (t.val % 8) + l.val, hc⟩ h w)]
  refine Finset.sum_congr rfl fun k _ => ?_
  exact (HostReads.iblk1 m c t r l k).trans (HostReads.V_v9 m c _ _ k)

/-- One point's update of row r: what the row held plus the point's tile sum of the sample's hinge terms. -/
theorem upd_term (c : Dev nD) (t : Fin cfg0.N) (acc : Vec Ideal S64x1 .f32) (r : Fin 64) :
    upd (iblk m c 0 t) (iblk m c 1 t) (iblk m c 2 t) (iblk m c 3 t) (iblk m c 4 t) acc (ix2 r 0)
      = acc (ix2 r 0) + tileN m c (64 * (t.val / 8) + r.val) (t.val % 8) := by
  have hN : t.val < 16 := lt_of_lt_of_eq t.isLt (show cfg0.N = 16 from N_0)
  have hb : 64 * (t.val / 8) + r.val < 128 := by have := r.isLt; omega
  have hj : t.val % 8 < 8 := Nat.mod_lt _ (by decide)
  refine (PayAt.upd_apply (blk0 m c t) (blk1 m c t) (iblk m c 2 t) (iblk m c 3 t) (row0 (iblk m c 4 t))
    (row1 (iblk m c 4 t)) acc r).trans ?_
  congr 1
  unfold tileN
  rw [dif_pos ⟨hb, hj⟩]
  refine Finset.sum_congr rfl fun l _ => ?_
  have hc : 128 * (t.val % 8) + l.val < 1024 := by have := l.isLt; omega
  rw [pos_sum m c t r l hb hc, pos_sum' m c t r l hb hc, row0_apply, row1_apply,
    HostReads.iblk2 m c t r, HostReads.V_v3 m c, HostReads.iblk3 m c t r, HostReads.V_v7 m c,
    HostReads.iblk4 m c t 0 l, HostReads.iblk4 m c t 1 l, HostReads.V_v10 m c, HostReads.V_v10 m c]
  rfl

end Cert.KernelIdeal.Terms

end
-- ==== Proof.Invariant.lean ====
/-
  What the carried running sums and the output block hold after each grid point.

  The 16 points run sample tile by sample tile, a tile's 8 channel tiles in order. After point n the running sums
  are the update of point n applied to zeros when n starts a sample tile (n % 8 = 0) and to the sums after point
  n − 1 otherwise; the output block after a sample tile's last point (n % 8 = 7) is written from them. Read on the
  extended reals, row r after point n is the sum over the channel tiles 0 … n % 8 of the tile sums of sample
  64·(n/8) + r: by induction on the point, each step adding one tile sum.
-/
import proofs.«406197_j14147622273725_3_alg».proof.Proof.Terms

set_option maxRecDepth 16384

noncomputable section

open scoped BigOperators

namespace Cert.KernelIdeal.Inv

open Cert.KernelIdeal Cert.KernelIdeal.Gen Cert.KernelIdeal.Pieces Cert.KernelIdeal.Terms Idealize.ShloMosaic
  Idealize.ShloMosaic.TcCoe Idealize.ShloMosaic.ValueIdx Idealize.SL.Sem

section Generic

variable {F : FTy → Type} [FloatOps F] [Named F]
variable (m : (ℓ : Loc nD τ sig) → Buf (Elt F) ℓ)

/-- The running sums after point n. -/
def acc (c : Dev nD) : (n : ℕ) → n < cfg0.N → Vec F S64x1 .f32
  | 0, h => upd (iblk m c 0 ⟨0, h⟩) (iblk m c 1 ⟨0, h⟩) (iblk m c 2 ⟨0, h⟩) (iblk m c 3 ⟨0, h⟩) (iblk m c 4 ⟨0, h⟩) k0_pay3
  | n + 1, h => upd (iblk m c 0 ⟨n + 1, h⟩) (iblk m c 1 ⟨n + 1, h⟩) (iblk m c 2 ⟨n + 1, h⟩) (iblk m c 3 ⟨n + 1, h⟩) (iblk m c 4 ⟨n + 1, h⟩)
      (if (n + 1) % 8 = 0 then k0_pay3 else acc c n (Nat.lt_of_succ_lt h))

/-- The carried scratch after point n holds the running sums. -/
theorem outsAt_snd (c : Dev nD) : ∀ (n : ℕ) (h : n < cfg0.N), (outsAt0 m c n h).2 = acc m c n h
  | 0, h => by
    rw [outsAt0_A m c ⟨0, h⟩ rfl (show ¬(0 : ℕ) % 8 = 7 by decide)]
    dsimp only
    exact sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) _ _ (iblk m c 0 ⟨0, h⟩) (iblk m c 1 ⟨0, h⟩) (iblk m c 2 ⟨0, h⟩) (iblk m c 3 ⟨0, h⟩) (iblk m c 4 ⟨0, h⟩)
  | n + 1, h => by
    have hN : n + 1 < 16 := lt_of_lt_of_eq h (show cfg0.N = 16 from N_0)
    by_cases h0 : (n + 1) % 8 = 0
    · have h1 : ¬(n + 1) % 8 = 7 := by omega
      rw [outsAt0_A m c ⟨n + 1, h⟩ h0 h1]
      dsimp only
      refine (sout_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩)).trans ?_
      show _ = upd (iblk m c 0 ⟨n + 1, h⟩) (iblk m c 1 ⟨n + 1, h⟩) (iblk m c 2 ⟨n + 1, h⟩) (iblk m c 3 ⟨n + 1, h⟩) (iblk m c 4 ⟨n + 1, h⟩) (if (n + 1) % 8 = 0 then k0_pay3 else acc m c n _)
      rw [if_pos h0]
    · by_cases h1 : (n + 1) % 8 = 7
      · rw [outsAt0_C m c ⟨n + 1, h⟩ h0 h1]
        dsimp only
        refine (sout_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) _).trans ?_
        show upd (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n _).2
          = upd (iblk m c 0 ⟨n + 1, h⟩) (iblk m c 1 ⟨n + 1, h⟩) (iblk m c 2 ⟨n + 1, h⟩) (iblk m c 3 ⟨n + 1, h⟩) (iblk m c 4 ⟨n + 1, h⟩) (if (n + 1) % 8 = 0 then k0_pay3 else acc m c n _)
        rw [if_neg h0, outsAt_snd c n]
      · rw [outsAt0_B m c ⟨n + 1, h⟩ h0 h1]
        dsimp only
        refine (sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) _).trans ?_
        show upd (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n _).2
          = upd (iblk m c 0 ⟨n + 1, h⟩) (iblk m c 1 ⟨n + 1, h⟩) (iblk m c 2 ⟨n + 1, h⟩) (iblk m c 3 ⟨n + 1, h⟩) (iblk m c 4 ⟨n + 1, h⟩) (if (n + 1) % 8 = 0 then k0_pay3 else acc m c n _)
        rw [if_neg h0, outsAt_snd c n]

/-- After a sample tile's last point the output block is written from the running sums. -/
theorem outsAt_fst (c : Dev nD) (t : Fin cfg0.N) (h7 : t.val % 8 = 7) :
    (outsAt0 m c t.val t.isLt).1 = fin (acc m c t.val t.isLt) := by
  have h0 : ¬t.val % 8 = 0 := by omega
  obtain ⟨n, h⟩ := t
  cases n with
  | zero => exact absurd h7 (show ¬(0 : ℕ) % 8 = 7 by decide)
  | succ n =>
    rw [outsAt0_C m c ⟨n + 1, h⟩ h0 h7]
    dsimp only
    refine (out_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) _).trans ?_
    show fin (upd (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n _).2)
      = fin (upd (iblk m c 0 ⟨n + 1, h⟩) (iblk m c 1 ⟨n + 1, h⟩) (iblk m c 2 ⟨n + 1, h⟩) (iblk m c 3 ⟨n + 1, h⟩) (iblk m c 4 ⟨n + 1, h⟩) (if (n + 1) % 8 = 0 then k0_pay3 else acc m c n _))
    rw [if_neg h0, outsAt_snd m c n]

end Generic

section AtIdeal

variable (m : (ℓ : Loc nD τ sig) → Buf (Elt Ideal) ℓ)

/-- Row r of the running sums after point n: the tile sums of sample 64·(n/8) + r over the channel tiles 0 … n % 8. -/
theorem acc_apply (c : Dev nD) : ∀ (n : ℕ) (h : n < cfg0.N) (r : Fin 64),
    acc m c n h (ix2 r 0) = ∑ j ∈ Finset.range (n % 8 + 1), tileN m c (64 * (n / 8) + r.val) j
  | 0, h, r => by
    show upd (iblk m c 0 ⟨0, h⟩) (iblk m c 1 ⟨0, h⟩) (iblk m c 2 ⟨0, h⟩) (iblk m c 3 ⟨0, h⟩) (iblk m c 4 ⟨0, h⟩) (k0_pay3 (F := Ideal)) (ix2 r 0) = _
    rw [upd_term m c ⟨0, h⟩ (k0_pay3 (F := Ideal)) r, PayAt.zero_apply, zero_add]
    show tileN m c (64 * (0 / 8) + r.val) (0 % 8) = _
    rw [Nat.zero_mod, Finset.sum_range_one]
  | n + 1, h, r => by
    have hN : n + 1 < 16 := lt_of_lt_of_eq h (show cfg0.N = 16 from N_0)
    show upd (iblk m c 0 ⟨n + 1, h⟩) (iblk m c 1 ⟨n + 1, h⟩) (iblk m c 2 ⟨n + 1, h⟩) (iblk m c 3 ⟨n + 1, h⟩) (iblk m c 4 ⟨n + 1, h⟩) (if (n + 1) % 8 = 0 then (k0_pay3 (F := Ideal)) else acc m c n _) (ix2 r 0) = _
    rw [upd_term m c ⟨n + 1, h⟩ _ r]
    show (if (n + 1) % 8 = 0 then (k0_pay3 (F := Ideal)) else acc m c n _) (ix2 r 0)
      + tileN m c (64 * ((n + 1) / 8) + r.val) ((n + 1) % 8) = _
    by_cases h0 : (n + 1) % 8 = 0
    · rw [if_pos h0, PayAt.zero_apply, zero_add, h0, Finset.sum_range_one]
    · rw [if_neg h0, acc_apply c n _ r]
      have hd : (n + 1) / 8 = n / 8 := by omega
      have hm : (n + 1) % 8 = n % 8 + 1 := by omega
      rw [hd, hm, Finset.sum_range_succ (fun j => tileN m c (64 * (n / 8) + r.val) j) (n % 8 + 1)]

end AtIdeal

end Cert.KernelIdeal.Inv

end
-- ==== Proof.Final.lean ====
/-
  The kernel's result.

  The output array [2, 1, 128] is written back only after each sample tile's last channel tile; its block i then
  holds, in every lane, the sum over the tile's 64 rows of the rows' completed running sums scaled by 2⁻¹⁰, that is
  the sum over the tile's samples of the mean of their 1024 hinge terms. The two blocks cover the array. The host
  lines after the call take lane 0 of each block and add the two: the sum over all 128 samples.
-/
import proofs.«406197_j14147622273725_3_alg».proof.Proof.Invariant
import Idealize.ShloMosaic.Lib.StableHlo.Run

set_option maxRecDepth 16384

noncomputable section

open scoped BigOperators

namespace Cert.KernelIdeal.Final

open Cert.KernelIdeal Cert.KernelIdeal.Gen Cert.KernelIdeal.Pieces Cert.KernelIdeal.Terms Cert.KernelIdeal.Inv
  Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The mean of sample b's hinge terms, the sample given as a natural number. -/
def lossN (c : Dev nD) (b : ℕ) : EReal := (∑ j ∈ Finset.range 8, tileN m c b j) * ((1 / 1024 : ℝ) : EReal)

/-- The output array: block i holds, in every lane, the sum of the losses of the tile's 64 samples. -/
def G0 (c : Dev nD) : FVec Ideal S2x1x128 .f32 :=
  fun y => (∑ r : Fin 64, lossN m c (64 * (y 0).val + r.val) : EReal)

/-- The same, as contents of the output array's buffer. -/
abbrev G (c : Dev nD) : Buf (Elt Ideal) ((c : Thread nD τ).loc main_v11) := G0 m c

/-- The output window's block index at point t is (t / 8, 0, 0). -/
theorem idx5 : ∀ t : Fin cfg0.N, win0_5.index t 0 = t.val / 8 ∧ win0_5.index t 1 = 0 ∧ win0_5.index t 2 = 0 :=
  (by decide +kernel : ∀ t : Fin grid0.N, win0_5.index t 0 = t.val / 8 ∧ win0_5.index t 1 = 0 ∧ win0_5.index t 2 = 0)

/-- What a flushing point writes back is its block of G. -/
theorem flushed_eq (c : Dev nD) (t : Fin cfg0.N) (hf : (cfg0.win 5).flush t = true) :
    (dats m 0 c).flushed 5 t = ((cfg0.win 5).blk t).view.read (Elt Ideal) (G m c) := by
  have h7 : t.val % 8 = 7 := (flush0_5 t).mp hf
  show (cfg0.win 5).cut (grid0.coords t) ((dats m 0 c).after 5 t) = _
  rw [after0_5, outsAt_fst m c t h7]
  funext y
  rw [View.read_apply]
  show k0_pay2 (F := Ideal) (acc m c t.val t.isLt) ((cfg0.win 5).xinj (grid0.coords t) y)
    = G0 m c (((cfg0.win 5).blk t).view.emb y)
  rw [PayAt.fin_apply]
  unfold G0 lossN
  have he : ((((cfg0.win 5).blk t).view.emb y) 0).val = t.val / 8 := by
    have h1 : (y 0).val < 1 := (y 0).isLt
    show win0_5.index t 0 * 1 + 1 * (y 0).val = _
    rw [(idx5 t).1]; omega
  rw [he]
  refine Finset.sum_congr rfl fun r _ => ?_
  rw [acc_apply m c t.val t.isLt r, h7]

/-- The two write-backs cover the output array: index (i, 0, lane) lies in the block of point 8·i + 7. -/
theorem cover (c : Dev nD) (i : ((cfg0.win 5).arr.view.loc ((c : Dev nD).tc : Thread nD τ)).2.ty.Idx) :
    ∃ t : Fin cfg0.N, (cfg0.win 5).flush t = true ∧ i ∈ ((cfg0.win 5).blk t).view.set := by
  have h0 : (i 0 : Nat) < 2 := (i 0).isLt
  have h1 : (i 1 : Nat) < 1 := (i 1).isLt
  have h2 : (i 2 : Nat) < 128 := (i 2).isLt
  have hN : cfg0.N = 16 := N_0
  have ht : 8 * (i 0).val + 7 < cfg0.N := by omega
  refine ⟨⟨8 * (i 0).val + 7, ht⟩, (flush0_5 _).mpr (by show (8 * (i 0).val + 7) % 8 = 7; omega), ?_⟩
  show i ∈ ((View.whole main_v11).slice (win0_5.rect ⟨8 * (i 0).val + 7, ht⟩)).set
  rw [View.set_slice_whole, Rect.mem_set_unit]
  intro a
  have hx : ∀ t : Fin cfg0.N, win0_5.xsize (grid0.coords t) 0 = 1 ∧ win0_5.xsize (grid0.coords t) 1 = 1
      ∧ win0_5.xsize (grid0.coords t) 2 = 128 :=
    (by decide +kernel : ∀ t : Fin grid0.N, win0_5.xsize (grid0.coords t) 0 = 1 ∧ win0_5.xsize (grid0.coords t) 1 = 1
      ∧ win0_5.xsize (grid0.coords t) 2 = 128)
  match a with
  | ⟨0, _⟩ =>
    show win0_5.index ⟨8 * (i 0).val + 7, ht⟩ 0 * win0_5.size 0 ≤ (i 0 : Nat)
      ∧ (i 0 : Nat) < win0_5.index ⟨8 * (i 0).val + 7, ht⟩ 0 * win0_5.size 0 + win0_5.xsize (grid0.coords ⟨8 * (i 0).val + 7, ht⟩) 0
    rw [(idx5 _).1, (hx _).1, show win0_5.size 0 = 1 from rfl]
    show (8 * (i 0).val + 7) / 8 * 1 ≤ (i 0 : Nat) ∧ (i 0 : Nat) < (8 * (i 0).val + 7) / 8 * 1 + 1
    omega
  | ⟨1, _⟩ =>
    show win0_5.index ⟨8 * (i 0).val + 7, ht⟩ 1 * win0_5.size 1 ≤ (i 1 : Nat)
      ∧ (i 1 : Nat) < win0_5.index ⟨8 * (i 0).val + 7, ht⟩ 1 * win0_5.size 1 + win0_5.xsize (grid0.coords ⟨8 * (i 0).val + 7, ht⟩) 1
    rw [(idx5 _).2.1, (hx _).2.1]
    omega
  | ⟨2, _⟩ =>
    show win0_5.index ⟨8 * (i 0).val + 7, ht⟩ 2 * win0_5.size 2 ≤ (i 2 : Nat)
      ∧ (i 2 : Nat) < win0_5.index ⟨8 * (i 0).val + 7, ht⟩ 2 * win0_5.size 2 + win0_5.xsize (grid0.coords ⟨8 * (i 0).val + 7, ht⟩) 2
    rw [(idx5 _).2.2, (hx _).2.2]
    omega

/-- So the output array ends holding G. -/
theorem final5 (c : Dev nD) : (dats m 0 c).arrAt 5 cfg0.N = G m c :=
  (dats m 0 c).arrAt_eq_of_cover 5 (G m c) (flushed_eq m c) (cover c)

/-- A sum over the rank-1 index set of the two blocks is the sum over the blocks. -/
theorem sum_two_idx (f : S2.Idx → EReal) : ∑ i, f i = ∑ b : Fin 2, f (ix1 b) := by
  let e : S2.Idx ≃ Fin 2 := ⟨fun i => i 0, ix1, fun i => (eq_ix1 i).symm, fun _ => rfl⟩
  rw [← Equiv.sum_comp e.symm f]
  rfl

/-- The host lines after the call: lane 0 of each block, the two added to zero. -/
theorem tail_eq (c : Dev nD) :
    Pipeline.afterTail₀ cfgs (dats m) 0 (V0 m) [hostOps1] c main_v14
      = fun _ => (Ideal.ofBits .f32 0x00000000#32 + ∑ i : Fin 2, G0 m c (ix3 i 0 0) : EReal) := by
  have hw : Pipeline.withArrays (cfgs 0).spec c (V0 m c) (fun w => (dats m 0 c).arrAt w (cfgs 0).N)
      (Proc.devRef .tc main_v11) = G m c :=
    (Pipeline.withArrays_arr spec0 launch0.win.arr_inj c _ _ 5).trans (final5 m c)
  have e : Pipeline.afterTail₀ cfgs (dats m) 0 (V0 m) [hostOps1] c main_v14
      = Host.reduceAdd (F := Ideal) (shapeCast S2 (extractStridedSlice S2x1x1 ![0, 0, 0]
          (Pipeline.withArrays (cfgs 0).spec c (V0 m c) (fun w => (dats m 0 c).arrAt w (cfgs 0).N)
            (Proc.devRef .tc main_v11)) slices_S2x1x128_S2x1x1_0_0_0) shapeCasts_S2x1x1_S2)
          (constant S_ .f32 0x00000000#32) reducesTo_S2_S_d0 h_S_ := by
    unfold Pipeline.afterTail₀
    show StableHlo.after hostOps1 _ (Proc.devRef .tc main_v14) = _
    after_results
    rfl
  rw [e, hw]
  funext j
  simp only [Host.reduceAdd, Ideal.hostReduceAdd_def]
  rw [Ideal.hostReduceAdd_total reducesTo_S2_S_d0 (fun b => b.elim0) _ _ j, sum_two_idx]
  refine congrArg₂ (· + ·) rfl (Finset.sum_congr rfl fun k _ => ?_)
  refine (shapeCast_apply (s := S2x1x1) (t := S2) _ _ (ix1 k) (ix3 k 0 0) ?_).trans ?_
  · rw [Shape.rowMajor_val_three, Shape.rowMajor_val_one]
    show (k.val * 1 + 0) * 1 + 0 = k.val
    omega
  · exact extractStridedSlice_apply (s := S2x1x128) (t := S2x1x1) _ _ _ (ix3 k 0 0) (ix3 k 0 0) (fun a => by
      match a with
      | ⟨0, _⟩ => show k.val = 0 + k.val; omega
      | ⟨1, _⟩ => rfl
      | ⟨2, _⟩ => rfl)

/-- The two blocks' lane 0 added up: the sum over all 128 samples of the mean of the sample's 1024 hinge terms. -/
theorem total_eq (c : Dev nD) :
    (Ideal.ofBits .f32 0x00000000#32 + ∑ i : Fin 2, G0 m c (ix3 i 0 0) : EReal)
      = Spec.total (X m c) (Xp m c) (A m c) (Q m c) (L m c) := by
  rw [Ideal.ofBits_zero_f32, zero_add]
  unfold Spec.total
  rw [Spec.sum_samples]
  refine Finset.sum_congr rfl fun i _ => ?_
  unfold G0
  refine Finset.sum_congr rfl fun r _ => ?_
  show lossN m c (64 * i.val + r.val) = _
  unfold lossN
  congr 1
  rw [Spec.sum_channels, Finset.sum_range]
  refine Finset.sum_congr rfl fun j _ => ?_
  unfold tileN
  rw [dif_pos ⟨by have := i.isLt; have := r.isLt; omega, j.isLt⟩]

/-- The kernel's run, read: the result is the specification's total of the arguments, which end unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v14)
        = (fun _ => Spec.total (X m c) (Xp m c) (A m c) (Q m c) (L m c) : Buf (Elt Ideal) ((c.tc : Thread nD τ).loc main_v14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v14 (Pipeline.mem_restRefs_of main_v14 (by decide) (by decide))).trans
        ((tail_eq m c).trans (funext fun _ => total_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Final

end
-- ==== Proof.lean ====
/-
  The certificate's claim: a pooled triplet-margin loss computed by one fused kernel against its jnp reference.

  Both programs average two feature maps over their 14 × 14 positions, pick each sample's anchor by its quality
  word, pick the positive and the negative among the two rows of a table by its label word, take per channel the
  hinge max(|anchor − positive + ε| − |anchor − negative + ε| + 1, 0), average a sample's 1024 hinges and add the
  128 samples up. The kernel does it tile by tile — 2 sample tiles × 8 channel tiles, a running sum per sample
  carried across a tile's channel tiles, the mean taken by the product with 2⁻¹⁰, the division by 196 as the
  product with the named 1/196 — and selects by arithmetic on 0/1 masks (t·a + (1 − t)·b) where the reference
  selects and indexes. On the extended reals each side is the same finite sum (Spec.total): a quotient by a nonzero
  real is the product with its inverse on every extended real, 0 · x = 0 even at the infinities, and sums regroup
  freely; so finiteness of the float inputs is not used. What is used is the precondition's last conjunct: every
  label word is 0 or 1, where indexing the table's two rows by label and by 1 − label is what the masks compute.

  The three frames: the two kernels' are the generated ones; the reference's is its generated run with the result
  dropped. The idealization rewrote one literal, twice: the f32 word of 1/196, named as the rational.
-/
import proofs.«406197_j14147622273725_3_alg».proof.Defs
import proofs.«406197_j14147622273725_3_alg».proof.Proof.Gen.Kernel
import proofs.«406197_j14147622273725_3_alg».proof.Proof.Gen.Kernel.Skeleton
import proofs.«406197_j14147622273725_3_alg».proof.Proof.Gen.Kernel.Launch
import proofs.«406197_j14147622273725_3_alg».proof.Proof.Gen.Kernel.Points
import proofs.«406197_j14147622273725_3_alg».proof.Proof.Gen.Kernel.Frame
import proofs.«406197_j14147622273725_3_alg».proof.Proof.Gen.KernelIdeal
import proofs.«406197_j14147622273725_3_alg».proof.Proof.Gen.KernelIdeal.Skeleton
import proofs.«406197_j14147622273725_3_alg».proof.Proof.Gen.KernelIdeal.Launch
import proofs.«406197_j14147622273725_3_alg».proof.Proof.Gen.KernelIdeal.Points
import proofs.«406197_j14147622273725_3_alg».proof.Proof.Gen.KernelIdeal.Frame
import proofs.«406197_j14147622273725_3_alg».proof.Proof.Gen.ReferenceIdeal
import proofs.«406197_j14147622273725_3_alg».proof.Proof.Gen.ReferenceIdeal.Run
import proofs.«406197_j14147622273725_3_alg».proof.Proof.Gen.ReferenceIdeal.Read
import proofs.«406197_j14147622273725_3_alg».proof.Proof.Spec
import proofs.«406197_j14147622273725_3_alg».proof.Proof.LibSegment
import proofs.«406197_j14147622273725_3_alg».proof.Proof.Gen.Pre_finite_inputs
import Idealize.ShloMosaic.Adequacy
import Idealize.ShloMosaic.Init

import proofs.«406197_j14147622273725_3_alg».proof.Proof.RefSide
import proofs.«406197_j14147622273725_3_alg».proof.Proof.Final

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's two entries: the table of names gives "inv_196" the value 1/196, which is what the printed constant
    denotes on the extended reals. -/
theorem preserves : Cert.preserves_Kernel_KernelIdeal :=
  ⟨IdealRules.named_const.statement Cert.KernelIdeal.κ "inv_196" .f32 0x3BA72F05#32 ((1 / 196 : ℝ) : EReal) rfl,
    IdealRules.named_const.statement Cert.KernelIdeal.κ "inv_196" .f32 0x3BA72F05#32 ((1 / 196 : ℝ) : EReal) rfl⟩

/-- On the extended reals the kernel's result and the reference's are both the specification's total of arguments
    that agree, given that every label word is 0 or 1. -/
theorem algebraic : Cert.algebraic_KernelIdeal_ReferenceIdeal := by
  intro m ρ m' ρ' hpre hagree
  have hl : ∀ (c : Dev Cert.KernelIdeal.nD) (b : Fin 128),
      Cert.KernelIdeal.Terms.L m c (ix1 b) = 0#32 ∨ Cert.KernelIdeal.Terms.L m c (ix1 b) = 1#32 :=
    fun c b => Cert.RefSide.label_range _ _ _ _ _ (hpre c) b
  refine ⟨fun c => fun _ => Cert.Spec.total (Cert.KernelIdeal.Terms.X m c) (Cert.KernelIdeal.Terms.Xp m c)
    (Cert.KernelIdeal.Terms.A m c) (Cert.KernelIdeal.Terms.Q m c) (Cert.KernelIdeal.Terms.L m c),
    Cert.KernelIdeal.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v43_eq, (hagree c).1, (hagree c).2.1, (hagree c).2.2.1,
    (hagree c).2.2.2.1, (hagree c).2.2.2.2]
  funext i
  exact Cert.RefSide.ref_total _ _ _ _ _ (hl c) i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
